-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v10_0)) (v2 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_v10_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024x32000 : Shape := ⟨2, ![1024, 32000]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x32000 : S_.BroadcastsInDim S1024x32000 (![] : Fin 0 → Fin S1024x32000.rank)
  reducesTo_S1024x32000_S_d0_1 : S1024x32000.ReducesTo [0, 1] S_

variable [Facts]

def fn_part4 {F : FTy → Type} [FloatOps F] (main_arg14 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  main_v73

def fn_part3 {F : FTy → Type} [FloatOps F] (main_arg11 : FVec F S1024x1024 .f32) (main_arg12 : FVec F S1024x1024 .f32) (main_arg13 : FVec F S1024x1024 .f32) (main_arg14 : FVec F S1024x1024 .f32) (main_v48 : IVec S_ 1) (main_v49 : FVec F S1024x32000 .f32) (main_v50 : FVec F S1024x32000 .f32) : IVec S_ 1 :=
  let main_v51 : IVec S1024x32000 1 := cmpf .olt main_v49 main_v50
  let main_c_19 : IVec S_ 1 := constantI S_ 1 1#1
  let main_v52 : IVec S_ 1 := (fun x v => Host.reduce IntOp.andi x v reducesTo_S1024x32000_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024x1024 .f32) (main_arg9 : FVec F S1024x1024 .f32) (main_arg10 : FVec F S1024x32000 .f32) (main_arg11 : FVec F S1024x1024 .f32) (main_arg12 : FVec F S1024x1024 .f32) (main_arg13 : FVec F S1024x1024 .f32) (main_arg14 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x32000 .f32 := Host.absf main_arg10
  let main_cst_18 : FVec F S_ .f32 := constant S_ .f32 0x7F800000#32
  let main_v50 : FVec F S1024x32000 .f32 := broadcastInDim S1024x32000 ![] bcast_S_S1024x32000 main_cst_18
  fn_part3 (F := F) main_arg11 main_arg12 main_arg13 main_arg14 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x32000 .f32) (main_arg11 : FVec F S1024x1024 .f32) (main_arg12 : FVec F S1024x1024 .f32) (main_arg13 : FVec F S1024x1024 .f32) (main_arg14 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x32000 .f32) (main_arg11 : FVec F S1024x1024 .f32) (main_arg12 : FVec F S1024x1024 .f32) (main_arg13 : FVec F S1024x1024 .f32) (main_arg14 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024x32000 : Shape := ⟨2, ![1024, 32000]⟩
abbrev S1024x4096 : Shape := ⟨2, ![1024, 4096]⟩
abbrev S128x1024 : Shape := ⟨2, ![128, 1024]⟩
abbrev S128x4096 : Shape := ⟨2, ![128, 4096]⟩
abbrev S4096x32000 : Shape := ⟨2, ![4096, 32000]⟩
abbrev S512x1024 : Shape := ⟨2, ![512, 1024]⟩
abbrev S1024x3200 : Shape := ⟨2, ![1024, 3200]⟩
abbrev S512x3200 : Shape := ⟨2, ![512, 3200]⟩

abbrev nBuf : Space → Nat
  | .hbm => 29
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x32000, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x4096, .f32⟩
  | .hbm, ⟨16, _⟩ => ⟨S1024x4096, .bf16⟩
  | .hbm, ⟨17, _⟩ => ⟨S1024x4096, .f32⟩
  | .hbm, ⟨18, _⟩ => ⟨S1024x4096, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x32000, .bf16⟩
  | .hbm, ⟨23, _⟩ => ⟨S4096x1024, .bf16⟩
  | .hbm, ⟨24, _⟩ => ⟨S4096x1024, .bf16⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S4096x32000, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S512x1024, .bf16⟩
  | .local _ .vmem, ⟨16, _⟩ => ⟨S512x1024, .bf16⟩
  | .local _ .vmem, ⟨17, _⟩ => ⟨S1024x3200, .bf16⟩
  | .local _ .vmem, ⟨18, _⟩ => ⟨S1024x3200, .bf16⟩
  | .local _ .vmem, ⟨19, _⟩ => ⟨S512x3200, .f32⟩
  | .local _ .vmem, ⟨20, _⟩ => ⟨S512x3200, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev main_v11 : Ref sig .tc := ⟨.hbm, 27, rfl⟩
abbrev main_v12 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![10, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x3200 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3200_S1024x3200_0_0 : ∀ a, (![0, 0] : Fin 2 → Nat) a + S1024x3200.size a ≤ S1024x3200.size a
  h_S1024x3200 : 0 < S1024x3200.numel
  shapeCasts_S1024x3200_S1024x3200 : S1024x3200.ShapeCasts S1024x3200
  inb_S512x3200_S512x3200_0_0 : ∀ a, (![0, 0] : Fin 2 → Nat) a + S512x3200.size a ≤ S512x3200.size a
  h_S512x3200 : 0 < S512x3200.numel
  dot_S128x1024_S1024x4096_S128x4096_1_0_0_1_n_n_wf : DotDims.WF S128x1024 S1024x4096 S128x4096 [1] [0] [0] [1] [] []
  dot_S128x1024_S1024x1024_S128x1024_1_0_0_1_n_n_wf : DotDims.WF S128x1024 S1024x1024 S128x1024 [1] [0] [0] [1] [] []
  dot_S512x1024_S1024x3200_S512x3200_1_0_0_1_n_n_wf : DotDims.WF S512x1024 S1024x3200 S512x3200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .bf16 = 32 ∨ (Rect.block (s := S4096x1024) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .bf16 = 32 ∨ (Rect.block (s := S4096x1024) S128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S4096x1024.size a
  hwx0_8 : ∀ i : grid0.Coords, EltTy.bits .f32 = 32 ∨ (Rect.block (s := S4096x1024) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S4096x1024.size a
  hwx0_9 : ∀ i : grid0.Coords, EltTy.bits .f32 = 32 ∨ (Rect.block (s := S4096x1024) S128x1024.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x3200.size a ≤ S1024x32000.size a
  hwx1_1 : ∀ i : grid1.Coords, EltTy.bits .bf16 = 32 ∨ (Rect.block (s := S1024x32000) S1024x3200.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x3200.size a ≤ S4096x32000.size a
  hwx1_2 : ∀ i : grid1.Coords, EltTy.bits .f32 = 32 ∨ (Rect.block (s := S4096x32000) S512x3200.size (cc1_transform_2 i) (hinb1_2 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S512x1024_S1024x3200_S512x3200_1_0_0_1_n_n : DotDims S512x1024 S1024x3200 S512x3200 where
  lhsContracting := [1]
  rhsContracting := [0]
  lhsNonContracting := [0]
  rhsNonContracting := [1]
  lhsBatch := []
  rhsBatch := []
  wf := dot_S512x1024_S1024x3200_S512x3200_1_0_0_1_n_n_wf

abbrev win0_0 : Pipeline.Window sig grid0 :=
  Pipeline.Window.ofSpec (Memref.whole main_v8) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10_0) S128x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_1) S128x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v11) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x3200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S512x3200.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024x32000 : Shape := ⟨2, ![1024, 32000]⟩
abbrev S1024x4096 : Shape := ⟨2, ![1024, 4096]⟩
abbrev S4096x4096 : Shape := ⟨2, ![4096, 4096]⟩
abbrev S_ : Shape := ⟨0, ![]⟩
abbrev S4096x32000 : Shape := ⟨2, ![4096, 32000]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x32000, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x4096, .f32⟩
  | .hbm, ⟨16, _⟩ => ⟨S1024x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x32000, .f32⟩
  | .hbm, ⟨61, _⟩ => ⟨S4096x32000, .f32⟩
  | .hbm, ⟨62, _⟩ => ⟨S4096x32000, .f32⟩
  | .hbm, ⟨63, _⟩ => ⟨S_, .f32⟩
  | .hbm, ⟨64, _⟩ => ⟨S4096x32000, .f32⟩
  | .hbm, ⟨65, _⟩ => ⟨S4096x32000, .f32⟩
  | .hbm, ⟨66, _⟩ => ⟨S_, .f32⟩
  | .hbm, ⟨67, _⟩ => ⟨S4096x32000, .f32⟩
  | .hbm, ⟨68, _⟩ => ⟨S4096x32000, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  bcast_S_S4096x32000 : S_.BroadcastsInDim S4096x32000 (![] : Fin 0 → Fin S4096x32000.rank)
  dot_S4096x1024_S1024x4096_S4096x4096_1_0_0_1_n_n_wf : DotDims.WF S4096x1024 S1024x4096 S4096x4096 [1] [0] [0] [1] [] []
  dot_S4096x1024_S1024x1024_S4096x1024_1_0_0_1_n_n_wf : DotDims.WF S4096x1024 S1024x1024 S4096x1024 [1] [0] [0] [1] [] []
  dot_S4096x1024_S1024x32000_S4096x32000_1_0_0_1_n_n_wf : DotDims.WF S4096x1024 S1024x32000 S4096x32000 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x32000_S4096x32000_1_0_0_1_n_n : DotDims S4096x1024 S1024x32000 S4096x32000 where
  lhsContracting := [1]
  rhsContracting := [0]
  lhsNonContracting := [0]
  rhsNonContracting := [1]
  lhsBatch := []
  rhsBatch := []
  wf := dot_S4096x1024_S1024x32000_S4096x32000_1_0_0_1_n_n_wf

class Facts : Prop extends Facts₀ where

variable [Facts]
-- ==== Proof.BitsBody.lean ====
/-
  The two kernel regions of the program, each taken alone at the contents `V` its arrays hold when the region is
  entered. Region 0 is the peephole LSTM cell on a block of 128 batch rows: it reads the row blocks of x, h, c and the
  five whole weight matrices, and stores the row blocks of Ht and Ct. Region 1 is the output projection on a
  512 × 3200 tile: it reads a row block of Ht (rounded) and a column block of w_op and stores the tile of Yt.
  For each region: the block of every window at a grid point, what the body leaves in each output buffer as a
  function of the input blocks (one whole-buffer store each, so the buffer ends at the stored value), the body's
  triple, the pipeline's proof data and the body obligation at every point.
-/
import proofs.«175886_j51951924412948_1_alg».proof.Proof.Gen.Kernel.Launch
import proofs.«175886_j51951924412948_1_alg».proof.Proof.Gen.Kernel.Skeleton
import proofs.«175886_j51951924412948_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the LSTM cell on 128 batch rows -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable {V}
variable {c : Dev nD} (dat : Dat τ (Elt F) Unit ℕ (UR sig nD τ) ℕ cfg0 c)

/-- An input window's current staging buffer holds its block at every point, whether the pipeline fetched it there or
    kept it from the point before (its block index then has not moved). One statement per input window. -/
theorem before0_0_of (hA : dat.A 0 = V c (Pipeline.arrRef spec0 0)) (hafter : ∀ t, dat.after 0 t = iblk0 V c 0 t) (t : Fin cfg0.N) (d) :
    dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of (hA : dat.A 1 = V c (Pipeline.arrRef spec0 1)) (hafter : ∀ t, dat.after 1 t = iblk0 V c 1 t) (t : Fin cfg0.N) (d) :
    dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of (hA : dat.A 2 = V c (Pipeline.arrRef spec0 2)) (hafter : ∀ t, dat.after 2 t = iblk0 V c 2 t) (t : Fin cfg0.N) (d) :
    dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of (hA : dat.A 3 = V c (Pipeline.arrRef spec0 3)) (hafter : ∀ t, dat.after 3 t = iblk0 V c 3 t) (t : Fin cfg0.N) (d) :
    dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of (hA : dat.A 4 = V c (Pipeline.arrRef spec0 4)) (hafter : ∀ t, dat.after 4 t = iblk0 V c 4 t) (t : Fin cfg0.N) (d) :
    dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of (hA : dat.A 5 = V c (Pipeline.arrRef spec0 5)) (hafter : ∀ t, dat.after 5 t = iblk0 V c 5 t) (t : Fin cfg0.N) (d) :
    dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of (hA : dat.A 6 = V c (Pipeline.arrRef spec0 6)) (hafter : ∀ t, dat.after 6 t = iblk0 V c 6 t) (t : Fin cfg0.N) (d) :
    dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of (hA : dat.A 7 = V c (Pipeline.arrRef spec0 7)) (hafter : ∀ t, dat.after 7 t = iblk0 V c 7 t) (t : Fin cfg0.N) (d) :
    dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's accesses: every load and store of region 0 is of a whole buffer -/

abbrev rRows : Rect S128x1024 := Rect.unit (s := S128x1024) ![0, 0] S128x1024.size inb_S128x1024_S128x1024_0_0
abbrev rWide : Rect S1024x4096 := Rect.unit (s := S1024x4096) ![0, 0] S1024x4096.size inb_S1024x4096_S1024x4096_0_0
abbrev rSq : Rect S1024x1024 := Rect.unit (s := S1024x1024) ![0, 0] S1024x1024.size inb_S1024x1024_S1024x1024_0_0

/-- The new cell state of the 128 rows, from the blocks of x, h, c, Wx, Wh, the forget and input peepholes. -/
def cellNew (x0 x1 : Vec F S128x1024 .bf16) (x2 : Vec F S128x1024 .f32) (x3 x4 : Vec F S1024x4096 .bf16) (x5 x6 : Vec F S1024x1024 .bf16) :
    FVec F S128x1024 .f32 :=
  k0_pay3 (View.ld x0 rRows) (View.ld x1 rRows) (View.ld x2 rRows) (View.ld x3 rWide) (View.ld x4 rWide) (View.ld x5 rSq) (View.ld x6 rSq)

/-- The new hidden state of the 128 rows: the output gate (which also reads the output peephole) times tanh of the
    new cell state. -/
def hiddenNew (x0 x1 : Vec F S128x1024 .bf16) (x2 : Vec F S128x1024 .f32) (x3 x4 : Vec F S1024x4096 .bf16) (x5 x6 x7 : Vec F S1024x1024 .bf16) :
    FVec F S128x1024 .f32 :=
  k0_pay1 (k0_pay4 (View.ld x0 rRows) (View.ld x1 rRows) (View.ld x2 rRows) (View.ld x3 rWide) (View.ld x4 rWide) (View.ld x5 rSq) (View.ld x6 rSq) (View.ld x7 rSq))
    (k0_pay5 (View.ld x0 rRows) (View.ld x1 rRows) (View.ld x2 rRows) (View.ld x3 rWide) (View.ld x4 rWide) (View.ld x5 rSq) (View.ld x6 rSq))

/-- Window 8's buffer (Ht's block) after the body: its one whole-buffer store. -/
def out0_8 (x0 x1 : Vec F S128x1024 .bf16) (x2 : Vec F S128x1024 .f32) (x3 x4 : Vec F S1024x4096 .bf16) (x5 x6 x7 : Vec F S1024x1024 .bf16) :
    Vec F S128x1024 .f32 :=
  View.canon [⟨rRows, hiddenNew x0 x1 x2 x3 x4 x5 x6 x7⟩]
/-- Window 9's buffer (Ct's block) after the body: its one whole-buffer store. -/
def out0_9 (x0 x1 : Vec F S128x1024 .bf16) (x2 : Vec F S128x1024 .f32) (x3 x4 : Vec F S1024x4096 .bf16) (x5 x6 : Vec F S1024x1024 .bf16) :
    Vec F S128x1024 .f32 :=
  View.canon [⟨rRows, cellNew x0 x1 x2 x3 x4 x5 x6⟩]

/-- One store of the whole 128 × 1024 rectangle covers the buffer. -/
theorem coverRows (p0 : Vec F S128x1024 .f32) (y : S128x1024.Idx) :
    ∃ pc ∈ ([⟨rRows, p0⟩] : List (View.Piece (Elt F) S128x1024 .f32)), y ∈ pc.1.set :=
  View.cover_of_tiled [⟨rRows, p0⟩] S128x1024.size (by rfl) y

/-! ## The body's triple -/

set_option maxHeartbeats 4000000 in
/-- The cell kernel on whole staging buffers — the eight inputs' at read contents, the two outputs' at anything — runs
    to the continuation with the inputs' as they were and the outputs' at `out0_8`, `out0_9` of the inputs'. -/
theorem sound_kernel0 (c : Dev nD) (E : Set ℕ) (i : grid0.Coords)
    (arg1 : Memref sig .tc .vmem S128x1024 .bf16) (harg1 : arg1.IsWhole) (arg2 : Memref sig .tc .vmem S128x1024 .bf16) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1024x1024 .bf16) (harg6 : arg6.IsWhole)
    (arg7 : Memref sig .tc .vmem S1024x1024 .bf16) (harg7 : arg7.IsWhole) (arg8 : Memref sig .tc .vmem S1024x1024 .bf16) (harg8 : arg8.IsWhole)
    (arg9 : Memref sig .tc .vmem S128x1024 .f32) (harg9 : arg9.IsWhole) (arg10 : Memref sig .tc .vmem S128x1024 .f32) (harg10 : arg10.IsWhole)
    (x0 x1 : Vec F S128x1024 .bf16) (x2 : Vec F S128x1024 .f32) (x3 x4 : Vec F S1024x4096 .bf16) (x5 x6 x7 : Vec F S1024x1024 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)
            ∗ owns (c : Thread nD τ) arg10 fullShare (out0_9 x0 x1 x2 x3 x4 x5 x6)) -∗ K ⟨⟩))
      ⊢ wp frame (wpE (defs₀ (F := F)) Variants.none c none) E
          (cc0__cell_kernel i arg1 harg1 arg2 harg2 arg3 harg3 arg4 harg4 arg5 harg5 arg6 harg6 arg7 harg7 arg8 harg8 arg9 harg9 arg10 harg10) K := by
  simp only [cc0__cell_kernel_eq_skeleton]; unfold cc0__cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverRows _)
  iexists _; isplitr
  swap; · iexact H9
  ipureintro
  exact View.read_writes_eq_canon _ _ _ (coverRows _)

/-! ## The pipeline's proof data -/

/-- Region 0's proof data on core `c`: the arrays as the region finds them; after the body at point `t` each input's
    buffer still at its block, Ht's at `out0_8` and Ct's at `out0_9` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t
    = out0_8 (iblk0 V c 0 t) (iblk0 V c 1 t) (iblk0 V c 2 t) (iblk0 V c 3 t) (iblk0 V c 4 t) (iblk0 V c 5 t) (iblk0 V c 6 t) (iblk0 V c 7 t) := by
  dsimp only [dat0]
theorem after0_9 (c : Dev nD) (t : Fin cfg0.N) : (dat0 V c).after 9 t
    = out0_9 (iblk0 V c 0 t) (iblk0 V c 1 t) (iblk0 V c 2 t) (iblk0 V c 3 t) (iblk0 V c 4 t) (iblk0 V c 5 t) (iblk0 V c 6 t) := by
  dsimp only [dat0]

theorem before0_0 (c : Dev nD) (t : Fin cfg0.N) (d) : (dat0 V c).before 0 t d = iblk0 V c 0 t :=
  before0_0_of (dat0 V c) (A_eq0 V c 0) (after0_0 V c) t d
theorem before0_1 (c : Dev nD) (t : Fin cfg0.N) (d) : (dat0 V c).before 1 t d = iblk0 V c 1 t :=
  before0_1_of (dat0 V c) (A_eq0 V c 1) (after0_1 V c) t d
theorem before0_2 (c : Dev nD) (t : Fin cfg0.N) (d) : (dat0 V c).before 2 t d = iblk0 V c 2 t :=
  before0_2_of (dat0 V c) (A_eq0 V c 2) (after0_2 V c) t d
theorem before0_3 (c : Dev nD) (t : Fin cfg0.N) (d) : (dat0 V c).before 3 t d = iblk0 V c 3 t :=
  before0_3_of (dat0 V c) (A_eq0 V c 3) (after0_3 V c) t d
theorem before0_4 (c : Dev nD) (t : Fin cfg0.N) (d) : (dat0 V c).before 4 t d = iblk0 V c 4 t :=
  before0_4_of (dat0 V c) (A_eq0 V c 4) (after0_4 V c) t d
theorem before0_5 (c : Dev nD) (t : Fin cfg0.N) (d) : (dat0 V c).before 5 t d = iblk0 V c 5 t :=
  before0_5_of (dat0 V c) (A_eq0 V c 5) (after0_5 V c) t d
theorem before0_6 (c : Dev nD) (t : Fin cfg0.N) (d) : (dat0 V c).before 6 t d = iblk0 V c 6 t :=
  before0_6_of (dat0 V c) (A_eq0 V c 6) (after0_6 V c) t d
theorem before0_7 (c : Dev nD) (t : Fin cfg0.N) (d) : (dat0 V c).before 7 t d = iblk0 V c 7 t :=
  before0_7_of (dat0 V c) (A_eq0 V c 7) (after0_7 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the kernel's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the output projection on a 512 × 3200 tile -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable {V}
variable {c : Dev nD} (dat : Dat τ (Elt F) Unit ℕ (UR sig nD τ) ℕ cfg1 c)

theorem before1_0_of (hA : dat.A 0 = V c (Pipeline.arrRef spec1 0)) (hafter : ∀ t, dat.after 0 t = iblk1 V c 0 t) (t : Fin cfg1.N) (d) :
    dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (hA : dat.A 1 = V c (Pipeline.arrRef spec1 1)) (hafter : ∀ t, dat.after 1 t = iblk1 V c 1 t) (t : Fin cfg1.N) (d) :
    dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

abbrev rHt : Rect S512x1024 := Rect.unit (s := S512x1024) ![0, 0] S512x1024.size inb_S512x1024_S512x1024_0_0
abbrev rWop : Rect S1024x3200 := Rect.unit (s := S1024x3200) ![0, 0] S1024x3200.size inb_S1024x3200_S1024x3200_0_0
abbrev rTile : Rect S512x3200 := Rect.unit (s := S512x3200) ![0, 0] S512x3200.size inb_S512x3200_S512x3200_0_0

/-- Window 2's buffer (Yt's tile) after the body: its one whole-buffer store. -/
def out1_2 (x0 : Vec F S512x1024 .bf16) (x1 : Vec F S1024x3200 .bf16) : Vec F S512x3200 .f32 :=
  View.canon [⟨rTile, k1_pay1 (View.ld x0 rHt) (View.ld x1 rWop)⟩]

/-- One store of the whole 512 × 3200 rectangle covers the buffer. -/
theorem coverTile (p0 : Vec F S512x3200 .f32) (y : S512x3200.Idx) :
    ∃ pc ∈ ([⟨rTile, p0⟩] : List (View.Piece (Elt F) S512x3200 .f32)), y ∈ pc.1.set :=
  View.cover_of_tiled [⟨rTile, p0⟩] S512x3200.size (by rfl) y

set_option maxHeartbeats 4000000 in
/-- The projection kernel on whole staging buffers — the two inputs' at read contents, the output's at anything — runs
    to the continuation with the inputs' as they were and the output's at `out1_2` of the inputs'. -/
theorem sound_kernel1 (c : Dev nD) (E : Set ℕ) (i : grid1.Coords)
    (arg2 : Memref sig .tc .vmem S512x1024 .bf16) (harg2 : arg2.IsWhole) (arg3 : Memref sig .tc .vmem S1024x3200 .bf16) (harg3 : arg3.IsWhole)
    (arg4 : Memref sig .tc .vmem S512x3200 .f32) (harg4 : arg4.IsWhole)
    (x0 : Vec F S512x1024 .bf16) (x1 : Vec F S1024x3200 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__proj_kernel i arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverTile _)

/-- Region 1's proof data on core `c`: the arrays as the region finds them; after the body at point `t` each input's
    buffer still at its block and Yt's at `out1_2` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of (dat1 V c) (A_eq1 V c 0) (after1_0 V c) t d
theorem before1_1 (c : Dev nD) (t : Fin cfg1.N) (d) : (dat1 V c).before 1 t d = iblk1 V c 1 t :=
  before1_1_of (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The whole run of the program: ten host operations (the two fused weight matrices joined and rounded, the other
  weights and x, h rounded), the cell region, one host operation (Ht rounded), the projection region. The buffer
  contents at each of the five boundaries are a fold from the launch memory: a host stretch applies its operations, a
  region leaves in each of its arrays what its write-backs add up to and every other buffer as it was. Every weakly fair
  execution terminates without a fault with every unscoped buffer at the last boundary's contents; read at an argument
  that is the launch contents, read at a result it is what the region's proof data say.
-/
import proofs.«175886_j51951924412948_1_alg».proof.Proof.BitsBody
import proofs.«175886_j51951924412948_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the cell region's entry). -/
abbrev W1 : Dev nD → Valuation τ sig (Elt F) := fun c => StableHlo.after hostOps0 (W0 m ρ c)
/-- The same read at the TensorCore's references. -/
abbrev At1 : (c : Dev nD) → (b : Ref sig .tc) → Buf (Elt F) ((c : Thread nD τ).loc b) := fun c b => W1 m ρ c b
/-- At the cell region's exit: its arrays at what the pipeline leaves, every other buffer as entered. -/
def W2 (c : Dev nD) : Valuation τ sig (Elt F) :=
  Pipeline.withArrays spec0 c (W1 m ρ c) fun w => (dat0 (At1 m ρ) c).arrAt w cfg0.N
theorem W2_arr (c : Dev nD) (w : Fin cfg0.W) :
    W2 m ρ c (Proc.devRef .tc (Pipeline.arrRef spec0 w)) = (dat0 (At1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev At2 : (c : Dev nD) → (b : Ref sig .tc) → Buf (Elt F) ((c : Thread nD τ).loc b) := fun c b => W2 m ρ c b
theorem hF0 (c : Dev nD) (w : Fin cfg0.W) : (dat0 (At1 m ρ) c).arrAt w cfg0.N = At2 m ρ c (Pipeline.arrRef spec0 w) :=
  (W2_arr m ρ c w).symm
theorem hrest0 (c : Dev nD) : ∀ b, b ∉ Finset.univ.image (Pipeline.arrRef spec0) → At2 m ρ c b = At1 m ρ c b :=
  fun b hb => W2_of_ne m ρ c b fun w e => hb (Finset.mem_image.mpr ⟨w, Finset.mem_univ _, e⟩)

/-- After the second host stretch (the projection region's entry). -/
abbrev W3 : Dev nD → Valuation τ sig (Elt F) := fun c => StableHlo.after hostOps1 (W2 m ρ c)
abbrev At3 : (c : Dev nD) → (b : Ref sig .tc) → Buf (Elt F) ((c : Thread nD τ).loc b) := fun c b => W3 m ρ c b
/-- At the projection region's exit. -/
def W4 (c : Dev nD) : Valuation τ sig (Elt F) :=
  Pipeline.withArrays spec1 c (W3 m ρ c) fun w => (dat1 (At3 m ρ) c).arrAt w cfg1.N
theorem W4_arr (c : Dev nD) (w : Fin cfg1.W) :
    W4 m ρ c (Proc.devRef .tc (Pipeline.arrRef spec1 w)) = (dat1 (At3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev At4 : (c : Dev nD) → (b : Ref sig .tc) → Buf (Elt F) ((c : Thread nD τ).loc b) := fun c b => W4 m ρ c b
theorem hF1 (c : Dev nD) (w : Fin cfg1.W) : (dat1 (At3 m ρ) c).arrAt w cfg1.N = At4 m ρ c (Pipeline.arrRef spec1 w) :=
  (W4_arr m ρ c w).symm
theorem hrest1 (c : Dev nD) : ∀ b, b ∉ Finset.univ.image (Pipeline.arrRef spec1) → At4 m ρ c b = At3 m ρ c b :=
  fun b hb => W4_of_ne m ρ c b fun w e => hb (Finset.mem_image.mpr ⟨w, Finset.mem_univ _, e⟩)

/-! ## A buffer nothing writes keeps its launch contents to the end -/

/-- A reference that is no array of the projection region, that the second host stretch does not write, that is no
    array of the cell region and that the first host stretch does not write holds its launch contents at the end. -/
theorem W4_untouched (c : Dev nD) (b : Ref sig .tc) (h1 : ∀ w, Pipeline.arrRef spec1 w ≠ b) (h2 : b ∉ hostOps1_W)
    (h3 : ∀ w, Pipeline.arrRef spec0 w ≠ b) (h4 : b ∉ hostOps0_W) :
    W4 m ρ c (Proc.devRef .tc b) = m ((c : Thread nD τ).loc b) :=
  calc W4 m ρ c (Proc.devRef .tc b)
    _ = W3 m ρ c (Proc.devRef .tc b) := W4_of_ne m ρ c b h1
    _ = W2 m ρ c (Proc.devRef .tc b) := StableHlo.after_of_writes_sub hostOps1 _ hostOps1_writes h2
    _ = W1 m ρ c (Proc.devRef .tc b) := W2_of_ne m ρ c b h3
    _ = W0 m ρ c (Proc.devRef .tc b) := StableHlo.after_of_writes_sub hostOps0 _ hostOps0_writes h4
    _ = m ((c : Thread nD τ).loc b) := rfl

/-- The cell state argument is an input array of the cell region: the pipeline leaves an input array as it found it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 2).trans (((dat0 (At1 m ρ) c).arrAt_in 2 rfl _).trans (A_eq0 (At1 m ρ) c 2))
    _ = W0 m ρ c (Proc.devRef .tc main_arg2) := StableHlo.after_of_writes_sub hostOps0 _ hostOps0_writes (by decide)
    _ = m ((c : Thread nD τ).loc main_arg2) := rfl

/-! ## The results at the end -/

/-- Yt is the projection region's output array. -/
theorem W4_main_v12 (c : Dev nD) : W4 m ρ c (Proc.devRef .tc main_v12) = (dat1 (At3 m ρ) c).arrAt 2 cfg1.N :=
  W4_arr m ρ c 2
/-- Ht is the cell region's first output array; nothing after that region writes it. -/
theorem W4_main_v10_0 (c : Dev nD) : W4 m ρ c (Proc.devRef .tc main_v10_0) = (dat0 (At1 m ρ) c).arrAt 8 cfg0.N :=
  calc W4 m ρ c (Proc.devRef .tc main_v10_0)
    _ = W3 m ρ c (Proc.devRef .tc main_v10_0) := W4_of_ne m ρ c main_v10_0 (by decide)
    _ = W2 m ρ c (Proc.devRef .tc main_v10_0) := StableHlo.after_of_writes_sub hostOps1 _ hostOps1_writes (by decide)
    _ = (dat0 (At1 m ρ) c).arrAt 8 cfg0.N := W2_arr m ρ c 8
/-- Ct is the cell region's second output array; nothing after that region writes it. -/
theorem W4_main_v10_1 (c : Dev nD) : W4 m ρ c (Proc.devRef .tc main_v10_1) = (dat0 (At1 m ρ) c).arrAt 9 cfg0.N :=
  calc W4 m ρ c (Proc.devRef .tc main_v10_1)
    _ = W3 m ρ c (Proc.devRef .tc main_v10_1) := W4_of_ne m ρ c main_v10_1 (by decide)
    _ = W2 m ρ c (Proc.devRef .tc main_v10_1) := StableHlo.after_of_writes_sub hostOps1 _ hostOps1_writes (by decide)
    _ = (dat0 (At1 m ρ) c).arrAt 9 cfg0.N := W2_arr m ρ c 9

/-! ## The proof data family and the thread state -/

abbrev adm' : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (At1 m ρ) c
  | ⟨1, _⟩ => fun c => dat1 (At3 m ρ) c
abbrev 𝒱₀ : Variants := Variants.none
abbrev Lno : GSem nD τ sig → Finset Unit := fun _ => ∅
abbrev lvno : GSem nD τ sig → Unit → ℕ := fun _ _ => 0
/-- What rides beside the buffers through every segment: the generator register at some state and nothing owed. -/
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lno lvno :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The cell region over the thread state: entered with every unscoped buffer at `W1`, left at `W2`. -/
def reg0 : Pipeline.RegionSeg (pcfgs (F := F)) adm' (pdats m ρ) () defs₀ 𝒱₀ Lno lvno 0 where
  win := launch0.win.to₀
  block_pos := launch0.block_pos
  stage_whole := launch0.stage_whole
  K := PEmpty
  osem k := k.elim
  ho := Pipeline.OwnSemFacts.none _
  hbody c := (body_obligation0 (At1 m ρ) c).loose
  hwaits := Pipeline.hwaits_of_owed_zero _ _ _ _ Lno lvno 0 fun _ _ => rfl
  pre c := iprop(StableHlo.held (c : Thread nD τ) (Pipeline.ucRefs τ sig) (W1 m ρ c) ∗ Rest c)
  post c := iprop(StableHlo.held (c : Thread nD τ) (Pipeline.ucRefs τ sig) (W2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (At1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (At1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (At1 m ρ c) (At2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The projection region over the thread state: entered with every unscoped buffer at `W3`, left at `W4`. -/
def reg1 : Pipeline.RegionSeg (pcfgs (F := F)) adm' (pdats m ρ) () defs₀ 𝒱₀ Lno lvno 1 where
  win := launch1.win.to₀
  block_pos := launch1.block_pos
  stage_whole := launch1.stage_whole
  K := PEmpty
  osem k := k.elim
  ho := Pipeline.OwnSemFacts.none _
  hbody c := (body_obligation1 (At3 m ρ) c).loose
  hwaits := Pipeline.hwaits_of_owed_zero _ _ _ _ Lno lvno 1 fun _ _ => rfl
  pre c := iprop(StableHlo.held (c : Thread nD τ) (Pipeline.ucRefs τ sig) (W3 m ρ c) ∗ Rest c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (At3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (At3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (At3 m ρ c) (At4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ Lno lvno) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: every weakly fair execution of @main from memory `m` with zero counters terminates, nothing faulting,
    and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ Lno lvno m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tlast m ρ)
    (hch := ⟨fun _ => .rfl, fun _ => .rfl, fun _ => .rfl, fun _ => .rfl, fun _ => .rfl⟩)
    (hinit := by
      refine Pipeline.initEach Lno lvno fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME at any float instance: the run, read at each of the fifteen arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W4_untouched m ρ c main_arg0 (by decide) (by decide) (by decide) (by decide)),
     (h c _ (mem_uc main_arg1 (by decide))).trans (W4_untouched m ρ c main_arg1 (by decide) (by decide) (by decide) (by decide)),
     (h c _ (mem_uc main_arg2 (by decide))).trans (W4_main_arg2 m ρ c),
     (h c _ (mem_uc main_arg3 (by decide))).trans (W4_untouched m ρ c main_arg3 (by decide) (by decide) (by decide) (by decide)),
     (h c _ (mem_uc main_arg4 (by decide))).trans (W4_untouched m ρ c main_arg4 (by decide) (by decide) (by decide) (by decide)),
     (h c _ (mem_uc main_arg5 (by decide))).trans (W4_untouched m ρ c main_arg5 (by decide) (by decide) (by decide) (by decide)),
     (h c _ (mem_uc main_arg6 (by decide))).trans (W4_untouched m ρ c main_arg6 (by decide) (by decide) (by decide) (by decide)),
     (h c _ (mem_uc main_arg7 (by decide))).trans (W4_untouched m ρ c main_arg7 (by decide) (by decide) (by decide) (by decide)),
     (h c _ (mem_uc main_arg8 (by decide))).trans (W4_untouched m ρ c main_arg8 (by decide) (by decide) (by decide) (by decide)),
     (h c _ (mem_uc main_arg9 (by decide))).trans (W4_untouched m ρ c main_arg9 (by decide) (by decide) (by decide) (by decide)),
     (h c _ (mem_uc main_arg10 (by decide))).trans (W4_untouched m ρ c main_arg10 (by decide) (by decide) (by decide) (by decide)),
     (h c _ (mem_uc main_arg11 (by decide))).trans (W4_untouched m ρ c main_arg11 (by decide) (by decide) (by decide) (by decide)),
     (h c _ (mem_uc main_arg12 (by decide))).trans (W4_untouched m ρ c main_arg12 (by decide) (by decide) (by decide) (by decide)),
     (h c _ (mem_uc main_arg13 (by decide))).trans (W4_untouched m ρ c main_arg13 (by decide) (by decide) (by decide) (by decide)),
     (h c _ (mem_uc main_arg14 (by decide))).trans (W4_untouched m ρ c main_arg14 (by decide) (by decide) (by decide) (by decide))⟩)
    (run_all m ρ)

end Cert.Kernel.Hand

end
-- ==== Proof.IdealBody.lean ====
/-
  The two kernel regions of the program, each taken alone at the contents `V` its arrays hold when the region is
  entered. Region 0 is the peephole LSTM cell on a block of 128 batch rows: it reads the row blocks of x, h, c and the
  five whole weight matrices, and stores the row blocks of Ht and Ct. Region 1 is the output projection on a
  512 × 3200 tile: it reads a row block of Ht (rounded) and a column block of w_op and stores the tile of Yt.
  For each region: the block of every window at a grid point, what the body leaves in each output buffer as a
  function of the input blocks (one whole-buffer store each, so the buffer ends at the stored value), the body's
  triple, the pipeline's proof data and the body obligation at every point.
-/
import proofs.«175886_j51951924412948_1_alg».proof.Proof.Gen.KernelIdeal.Launch
import proofs.«175886_j51951924412948_1_alg».proof.Proof.Gen.KernelIdeal.Skeleton
import proofs.«175886_j51951924412948_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the LSTM cell on 128 batch rows -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable {V}
variable {c : Dev nD} (dat : Dat τ (Elt F) Unit ℕ (UR sig nD τ) ℕ cfg0 c)

/-- An input window's current staging buffer holds its block at every point, whether the pipeline fetched it there or
    kept it from the point before (its block index then has not moved). One statement per input window. -/
theorem before0_0_of (hA : dat.A 0 = V c (Pipeline.arrRef spec0 0)) (hafter : ∀ t, dat.after 0 t = iblk0 V c 0 t) (t : Fin cfg0.N) (d) :
    dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of (hA : dat.A 1 = V c (Pipeline.arrRef spec0 1)) (hafter : ∀ t, dat.after 1 t = iblk0 V c 1 t) (t : Fin cfg0.N) (d) :
    dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of (hA : dat.A 2 = V c (Pipeline.arrRef spec0 2)) (hafter : ∀ t, dat.after 2 t = iblk0 V c 2 t) (t : Fin cfg0.N) (d) :
    dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of (hA : dat.A 3 = V c (Pipeline.arrRef spec0 3)) (hafter : ∀ t, dat.after 3 t = iblk0 V c 3 t) (t : Fin cfg0.N) (d) :
    dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of (hA : dat.A 4 = V c (Pipeline.arrRef spec0 4)) (hafter : ∀ t, dat.after 4 t = iblk0 V c 4 t) (t : Fin cfg0.N) (d) :
    dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of (hA : dat.A 5 = V c (Pipeline.arrRef spec0 5)) (hafter : ∀ t, dat.after 5 t = iblk0 V c 5 t) (t : Fin cfg0.N) (d) :
    dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of (hA : dat.A 6 = V c (Pipeline.arrRef spec0 6)) (hafter : ∀ t, dat.after 6 t = iblk0 V c 6 t) (t : Fin cfg0.N) (d) :
    dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of (hA : dat.A 7 = V c (Pipeline.arrRef spec0 7)) (hafter : ∀ t, dat.after 7 t = iblk0 V c 7 t) (t : Fin cfg0.N) (d) :
    dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's accesses: every load and store of region 0 is of a whole buffer -/

abbrev rRows : Rect S128x1024 := Rect.unit (s := S128x1024) ![0, 0] S128x1024.size inb_S128x1024_S128x1024_0_0
abbrev rWide : Rect S1024x4096 := Rect.unit (s := S1024x4096) ![0, 0] S1024x4096.size inb_S1024x4096_S1024x4096_0_0
abbrev rSq : Rect S1024x1024 := Rect.unit (s := S1024x1024) ![0, 0] S1024x1024.size inb_S1024x1024_S1024x1024_0_0

/-- The new cell state of the 128 rows, from the blocks of x, h, c, Wx, Wh, the forget and input peepholes. -/
def cellNew (x0 x1 : Vec F S128x1024 .bf16) (x2 : Vec F S128x1024 .f32) (x3 x4 : Vec F S1024x4096 .bf16) (x5 x6 : Vec F S1024x1024 .bf16) :
    FVec F S128x1024 .f32 :=
  k0_pay3 (View.ld x0 rRows) (View.ld x1 rRows) (View.ld x2 rRows) (View.ld x3 rWide) (View.ld x4 rWide) (View.ld x5 rSq) (View.ld x6 rSq)

/-- The new hidden state of the 128 rows: the output gate (which also reads the output peephole) times tanh of the
    new cell state. -/
def hiddenNew (x0 x1 : Vec F S128x1024 .bf16) (x2 : Vec F S128x1024 .f32) (x3 x4 : Vec F S1024x4096 .bf16) (x5 x6 x7 : Vec F S1024x1024 .bf16) :
    FVec F S128x1024 .f32 :=
  k0_pay1 (k0_pay4 (View.ld x0 rRows) (View.ld x1 rRows) (View.ld x2 rRows) (View.ld x3 rWide) (View.ld x4 rWide) (View.ld x5 rSq) (View.ld x6 rSq) (View.ld x7 rSq))
    (k0_pay5 (View.ld x0 rRows) (View.ld x1 rRows) (View.ld x2 rRows) (View.ld x3 rWide) (View.ld x4 rWide) (View.ld x5 rSq) (View.ld x6 rSq))

/-- Window 8's buffer (Ht's block) after the body: its one whole-buffer store. -/
def out0_8 (x0 x1 : Vec F S128x1024 .bf16) (x2 : Vec F S128x1024 .f32) (x3 x4 : Vec F S1024x4096 .bf16) (x5 x6 x7 : Vec F S1024x1024 .bf16) :
    Vec F S128x1024 .f32 :=
  View.canon [⟨rRows, hiddenNew x0 x1 x2 x3 x4 x5 x6 x7⟩]
/-- Window 9's buffer (Ct's block) after the body: its one whole-buffer store. -/
def out0_9 (x0 x1 : Vec F S128x1024 .bf16) (x2 : Vec F S128x1024 .f32) (x3 x4 : Vec F S1024x4096 .bf16) (x5 x6 : Vec F S1024x1024 .bf16) :
    Vec F S128x1024 .f32 :=
  View.canon [⟨rRows, cellNew x0 x1 x2 x3 x4 x5 x6⟩]

/-- One store of the whole 128 × 1024 rectangle covers the buffer. -/
theorem coverRows (p0 : Vec F S128x1024 .f32) (y : S128x1024.Idx) :
    ∃ pc ∈ ([⟨rRows, p0⟩] : List (View.Piece (Elt F) S128x1024 .f32)), y ∈ pc.1.set :=
  View.cover_of_tiled [⟨rRows, p0⟩] S128x1024.size (by rfl) y

/-! ## The body's triple -/

set_option maxHeartbeats 4000000 in
/-- The cell kernel on whole staging buffers — the eight inputs' at read contents, the two outputs' at anything — runs
    to the continuation with the inputs' as they were and the outputs' at `out0_8`, `out0_9` of the inputs'. -/
theorem sound_kernel0 (c : Dev nD) (E : Set ℕ) (i : grid0.Coords)
    (arg1 : Memref sig .tc .vmem S128x1024 .bf16) (harg1 : arg1.IsWhole) (arg2 : Memref sig .tc .vmem S128x1024 .bf16) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1024x1024 .bf16) (harg6 : arg6.IsWhole)
    (arg7 : Memref sig .tc .vmem S1024x1024 .bf16) (harg7 : arg7.IsWhole) (arg8 : Memref sig .tc .vmem S1024x1024 .bf16) (harg8 : arg8.IsWhole)
    (arg9 : Memref sig .tc .vmem S128x1024 .f32) (harg9 : arg9.IsWhole) (arg10 : Memref sig .tc .vmem S128x1024 .f32) (harg10 : arg10.IsWhole)
    (x0 x1 : Vec F S128x1024 .bf16) (x2 : Vec F S128x1024 .f32) (x3 x4 : Vec F S1024x4096 .bf16) (x5 x6 x7 : Vec F S1024x1024 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)
            ∗ owns (c : Thread nD τ) arg10 fullShare (out0_9 x0 x1 x2 x3 x4 x5 x6)) -∗ K ⟨⟩))
      ⊢ wp frame (wpE (defs₀ (F := F)) Variants.none c none) E
          (cc0__cell_kernel i arg1 harg1 arg2 harg2 arg3 harg3 arg4 harg4 arg5 harg5 arg6 harg6 arg7 harg7 arg8 harg8 arg9 harg9 arg10 harg10) K := by
  simp only [cc0__cell_kernel_eq_skeleton]; unfold cc0__cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverRows _)
  iexists _; isplitr
  swap; · iexact H9
  ipureintro
  exact View.read_writes_eq_canon _ _ _ (coverRows _)

/-! ## The pipeline's proof data -/

/-- Region 0's proof data on core `c`: the arrays as the region finds them; after the body at point `t` each input's
    buffer still at its block, Ht's at `out0_8` and Ct's at `out0_9` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t
    = out0_8 (iblk0 V c 0 t) (iblk0 V c 1 t) (iblk0 V c 2 t) (iblk0 V c 3 t) (iblk0 V c 4 t) (iblk0 V c 5 t) (iblk0 V c 6 t) (iblk0 V c 7 t) := by
  dsimp only [dat0]
theorem after0_9 (c : Dev nD) (t : Fin cfg0.N) : (dat0 V c).after 9 t
    = out0_9 (iblk0 V c 0 t) (iblk0 V c 1 t) (iblk0 V c 2 t) (iblk0 V c 3 t) (iblk0 V c 4 t) (iblk0 V c 5 t) (iblk0 V c 6 t) := by
  dsimp only [dat0]

theorem before0_0 (c : Dev nD) (t : Fin cfg0.N) (d) : (dat0 V c).before 0 t d = iblk0 V c 0 t :=
  before0_0_of (dat0 V c) (A_eq0 V c 0) (after0_0 V c) t d
theorem before0_1 (c : Dev nD) (t : Fin cfg0.N) (d) : (dat0 V c).before 1 t d = iblk0 V c 1 t :=
  before0_1_of (dat0 V c) (A_eq0 V c 1) (after0_1 V c) t d
theorem before0_2 (c : Dev nD) (t : Fin cfg0.N) (d) : (dat0 V c).before 2 t d = iblk0 V c 2 t :=
  before0_2_of (dat0 V c) (A_eq0 V c 2) (after0_2 V c) t d
theorem before0_3 (c : Dev nD) (t : Fin cfg0.N) (d) : (dat0 V c).before 3 t d = iblk0 V c 3 t :=
  before0_3_of (dat0 V c) (A_eq0 V c 3) (after0_3 V c) t d
theorem before0_4 (c : Dev nD) (t : Fin cfg0.N) (d) : (dat0 V c).before 4 t d = iblk0 V c 4 t :=
  before0_4_of (dat0 V c) (A_eq0 V c 4) (after0_4 V c) t d
theorem before0_5 (c : Dev nD) (t : Fin cfg0.N) (d) : (dat0 V c).before 5 t d = iblk0 V c 5 t :=
  before0_5_of (dat0 V c) (A_eq0 V c 5) (after0_5 V c) t d
theorem before0_6 (c : Dev nD) (t : Fin cfg0.N) (d) : (dat0 V c).before 6 t d = iblk0 V c 6 t :=
  before0_6_of (dat0 V c) (A_eq0 V c 6) (after0_6 V c) t d
theorem before0_7 (c : Dev nD) (t : Fin cfg0.N) (d) : (dat0 V c).before 7 t d = iblk0 V c 7 t :=
  before0_7_of (dat0 V c) (A_eq0 V c 7) (after0_7 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the kernel's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the output projection on a 512 × 3200 tile -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable {V}
variable {c : Dev nD} (dat : Dat τ (Elt F) Unit ℕ (UR sig nD τ) ℕ cfg1 c)

theorem before1_0_of (hA : dat.A 0 = V c (Pipeline.arrRef spec1 0)) (hafter : ∀ t, dat.after 0 t = iblk1 V c 0 t) (t : Fin cfg1.N) (d) :
    dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (hA : dat.A 1 = V c (Pipeline.arrRef spec1 1)) (hafter : ∀ t, dat.after 1 t = iblk1 V c 1 t) (t : Fin cfg1.N) (d) :
    dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

abbrev rHt : Rect S512x1024 := Rect.unit (s := S512x1024) ![0, 0] S512x1024.size inb_S512x1024_S512x1024_0_0
abbrev rWop : Rect S1024x3200 := Rect.unit (s := S1024x3200) ![0, 0] S1024x3200.size inb_S1024x3200_S1024x3200_0_0
abbrev rTile : Rect S512x3200 := Rect.unit (s := S512x3200) ![0, 0] S512x3200.size inb_S512x3200_S512x3200_0_0

/-- Window 2's buffer (Yt's tile) after the body: its one whole-buffer store. -/
def out1_2 (x0 : Vec F S512x1024 .bf16) (x1 : Vec F S1024x3200 .bf16) : Vec F S512x3200 .f32 :=
  View.canon [⟨rTile, k1_pay1 (View.ld x0 rHt) (View.ld x1 rWop)⟩]

/-- One store of the whole 512 × 3200 rectangle covers the buffer. -/
theorem coverTile (p0 : Vec F S512x3200 .f32) (y : S512x3200.Idx) :
    ∃ pc ∈ ([⟨rTile, p0⟩] : List (View.Piece (Elt F) S512x3200 .f32)), y ∈ pc.1.set :=
  View.cover_of_tiled [⟨rTile, p0⟩] S512x3200.size (by rfl) y

set_option maxHeartbeats 4000000 in
/-- The projection kernel on whole staging buffers — the two inputs' at read contents, the output's at anything — runs
    to the continuation with the inputs' as they were and the output's at `out1_2` of the inputs'. -/
theorem sound_kernel1 (c : Dev nD) (E : Set ℕ) (i : grid1.Coords)
    (arg2 : Memref sig .tc .vmem S512x1024 .bf16) (harg2 : arg2.IsWhole) (arg3 : Memref sig .tc .vmem S1024x3200 .bf16) (harg3 : arg3.IsWhole)
    (arg4 : Memref sig .tc .vmem S512x3200 .f32) (harg4 : arg4.IsWhole)
    (x0 : Vec F S512x1024 .bf16) (x1 : Vec F S1024x3200 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__proj_kernel i arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverTile _)

/-- Region 1's proof data on core `c`: the arrays as the region finds them; after the body at point `t` each input's
    buffer still at its block and Yt's at `out1_2` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of (dat1 V c) (A_eq1 V c 0) (after1_0 V c) t d
theorem before1_1 (c : Dev nD) (t : Fin cfg1.N) (d) : (dat1 V c).before 1 t d = iblk1 V c 1 t :=
  before1_1_of (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/-
  The whole run of the program: ten host operations (the two fused weight matrices joined and rounded, the other
  weights and x, h rounded), the cell region, one host operation (Ht rounded), the projection region. The buffer
  contents at each of the five boundaries are a fold from the launch memory: a host stretch applies its operations, a
  region leaves in each of its arrays what its write-backs add up to and every other buffer as it was. Every weakly fair
  execution terminates without a fault with every unscoped buffer at the last boundary's contents; read at an argument
  that is the launch contents, read at a result it is what the region's proof data say.
-/
import proofs.«175886_j51951924412948_1_alg».proof.Proof.IdealBody
import proofs.«175886_j51951924412948_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the cell region's entry). -/
abbrev W1 : Dev nD → Valuation τ sig (Elt F) := fun c => StableHlo.after hostOps0 (W0 m ρ c)
/-- The same read at the TensorCore's references. -/
abbrev At1 : (c : Dev nD) → (b : Ref sig .tc) → Buf (Elt F) ((c : Thread nD τ).loc b) := fun c b => W1 m ρ c b
/-- At the cell region's exit: its arrays at what the pipeline leaves, every other buffer as entered. -/
def W2 (c : Dev nD) : Valuation τ sig (Elt F) :=
  Pipeline.withArrays spec0 c (W1 m ρ c) fun w => (dat0 (At1 m ρ) c).arrAt w cfg0.N
theorem W2_arr (c : Dev nD) (w : Fin cfg0.W) :
    W2 m ρ c (Proc.devRef .tc (Pipeline.arrRef spec0 w)) = (dat0 (At1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev At2 : (c : Dev nD) → (b : Ref sig .tc) → Buf (Elt F) ((c : Thread nD τ).loc b) := fun c b => W2 m ρ c b
theorem hF0 (c : Dev nD) (w : Fin cfg0.W) : (dat0 (At1 m ρ) c).arrAt w cfg0.N = At2 m ρ c (Pipeline.arrRef spec0 w) :=
  (W2_arr m ρ c w).symm
theorem hrest0 (c : Dev nD) : ∀ b, b ∉ Finset.univ.image (Pipeline.arrRef spec0) → At2 m ρ c b = At1 m ρ c b :=
  fun b hb => W2_of_ne m ρ c b fun w e => hb (Finset.mem_image.mpr ⟨w, Finset.mem_univ _, e⟩)

/-- After the second host stretch (the projection region's entry). -/
abbrev W3 : Dev nD → Valuation τ sig (Elt F) := fun c => StableHlo.after hostOps1 (W2 m ρ c)
abbrev At3 : (c : Dev nD) → (b : Ref sig .tc) → Buf (Elt F) ((c : Thread nD τ).loc b) := fun c b => W3 m ρ c b
/-- At the projection region's exit. -/
def W4 (c : Dev nD) : Valuation τ sig (Elt F) :=
  Pipeline.withArrays spec1 c (W3 m ρ c) fun w => (dat1 (At3 m ρ) c).arrAt w cfg1.N
theorem W4_arr (c : Dev nD) (w : Fin cfg1.W) :
    W4 m ρ c (Proc.devRef .tc (Pipeline.arrRef spec1 w)) = (dat1 (At3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev At4 : (c : Dev nD) → (b : Ref sig .tc) → Buf (Elt F) ((c : Thread nD τ).loc b) := fun c b => W4 m ρ c b
theorem hF1 (c : Dev nD) (w : Fin cfg1.W) : (dat1 (At3 m ρ) c).arrAt w cfg1.N = At4 m ρ c (Pipeline.arrRef spec1 w) :=
  (W4_arr m ρ c w).symm
theorem hrest1 (c : Dev nD) : ∀ b, b ∉ Finset.univ.image (Pipeline.arrRef spec1) → At4 m ρ c b = At3 m ρ c b :=
  fun b hb => W4_of_ne m ρ c b fun w e => hb (Finset.mem_image.mpr ⟨w, Finset.mem_univ _, e⟩)

/-! ## A buffer nothing writes keeps its launch contents to the end -/

/-- A reference that is no array of the projection region, that the second host stretch does not write, that is no
    array of the cell region and that the first host stretch does not write holds its launch contents at the end. -/
theorem W4_untouched (c : Dev nD) (b : Ref sig .tc) (h1 : ∀ w, Pipeline.arrRef spec1 w ≠ b) (h2 : b ∉ hostOps1_W)
    (h3 : ∀ w, Pipeline.arrRef spec0 w ≠ b) (h4 : b ∉ hostOps0_W) :
    W4 m ρ c (Proc.devRef .tc b) = m ((c : Thread nD τ).loc b) :=
  calc W4 m ρ c (Proc.devRef .tc b)
    _ = W3 m ρ c (Proc.devRef .tc b) := W4_of_ne m ρ c b h1
    _ = W2 m ρ c (Proc.devRef .tc b) := StableHlo.after_of_writes_sub hostOps1 _ hostOps1_writes h2
    _ = W1 m ρ c (Proc.devRef .tc b) := W2_of_ne m ρ c b h3
    _ = W0 m ρ c (Proc.devRef .tc b) := StableHlo.after_of_writes_sub hostOps0 _ hostOps0_writes h4
    _ = m ((c : Thread nD τ).loc b) := rfl

/-- The cell state argument is an input array of the cell region: the pipeline leaves an input array as it found it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 2).trans (((dat0 (At1 m ρ) c).arrAt_in 2 rfl _).trans (A_eq0 (At1 m ρ) c 2))
    _ = W0 m ρ c (Proc.devRef .tc main_arg2) := StableHlo.after_of_writes_sub hostOps0 _ hostOps0_writes (by decide)
    _ = m ((c : Thread nD τ).loc main_arg2) := rfl

/-! ## The results at the end -/

/-- Yt is the projection region's output array. -/
theorem W4_main_v12 (c : Dev nD) : W4 m ρ c (Proc.devRef .tc main_v12) = (dat1 (At3 m ρ) c).arrAt 2 cfg1.N :=
  W4_arr m ρ c 2
/-- Ht is the cell region's first output array; nothing after that region writes it. -/
theorem W4_main_v10_0 (c : Dev nD) : W4 m ρ c (Proc.devRef .tc main_v10_0) = (dat0 (At1 m ρ) c).arrAt 8 cfg0.N :=
  calc W4 m ρ c (Proc.devRef .tc main_v10_0)
    _ = W3 m ρ c (Proc.devRef .tc main_v10_0) := W4_of_ne m ρ c main_v10_0 (by decide)
    _ = W2 m ρ c (Proc.devRef .tc main_v10_0) := StableHlo.after_of_writes_sub hostOps1 _ hostOps1_writes (by decide)
    _ = (dat0 (At1 m ρ) c).arrAt 8 cfg0.N := W2_arr m ρ c 8
/-- Ct is the cell region's second output array; nothing after that region writes it. -/
theorem W4_main_v10_1 (c : Dev nD) : W4 m ρ c (Proc.devRef .tc main_v10_1) = (dat0 (At1 m ρ) c).arrAt 9 cfg0.N :=
  calc W4 m ρ c (Proc.devRef .tc main_v10_1)
    _ = W3 m ρ c (Proc.devRef .tc main_v10_1) := W4_of_ne m ρ c main_v10_1 (by decide)
    _ = W2 m ρ c (Proc.devRef .tc main_v10_1) := StableHlo.after_of_writes_sub hostOps1 _ hostOps1_writes (by decide)
    _ = (dat0 (At1 m ρ) c).arrAt 9 cfg0.N := W2_arr m ρ c 9

/-! ## The proof data family and the thread state -/

abbrev adm' : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (At1 m ρ) c
  | ⟨1, _⟩ => fun c => dat1 (At3 m ρ) c
abbrev 𝒱₀ : Variants := Variants.none
abbrev Lno : GSem nD τ sig → Finset Unit := fun _ => ∅
abbrev lvno : GSem nD τ sig → Unit → ℕ := fun _ _ => 0
/-- What rides beside the buffers through every segment: the generator register at some state and nothing owed. -/
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lno lvno :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The cell region over the thread state: entered with every unscoped buffer at `W1`, left at `W2`. -/
def reg0 : Pipeline.RegionSeg (pcfgs (F := F)) adm' (pdats m ρ) () defs₀ 𝒱₀ Lno lvno 0 where
  win := launch0.win.to₀
  block_pos := launch0.block_pos
  stage_whole := launch0.stage_whole
  K := PEmpty
  osem k := k.elim
  ho := Pipeline.OwnSemFacts.none _
  hbody c := (body_obligation0 (At1 m ρ) c).loose
  hwaits := Pipeline.hwaits_of_owed_zero _ _ _ _ Lno lvno 0 fun _ _ => rfl
  pre c := iprop(StableHlo.held (c : Thread nD τ) (Pipeline.ucRefs τ sig) (W1 m ρ c) ∗ Rest c)
  post c := iprop(StableHlo.held (c : Thread nD τ) (Pipeline.ucRefs τ sig) (W2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (At1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (At1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (At1 m ρ c) (At2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The projection region over the thread state: entered with every unscoped buffer at `W3`, left at `W4`. -/
def reg1 : Pipeline.RegionSeg (pcfgs (F := F)) adm' (pdats m ρ) () defs₀ 𝒱₀ Lno lvno 1 where
  win := launch1.win.to₀
  block_pos := launch1.block_pos
  stage_whole := launch1.stage_whole
  K := PEmpty
  osem k := k.elim
  ho := Pipeline.OwnSemFacts.none _
  hbody c := (body_obligation1 (At3 m ρ) c).loose
  hwaits := Pipeline.hwaits_of_owed_zero _ _ _ _ Lno lvno 1 fun _ _ => rfl
  pre c := iprop(StableHlo.held (c : Thread nD τ) (Pipeline.ucRefs τ sig) (W3 m ρ c) ∗ Rest c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (At3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (At3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (At3 m ρ c) (At4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ Lno lvno) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: every weakly fair execution of @main from memory `m` with zero counters terminates, nothing faulting,
    and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ Lno lvno m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tlast m ρ)
    (hch := ⟨fun _ => .rfl, fun _ => .rfl, fun _ => .rfl, fun _ => .rfl, fun _ => .rfl⟩)
    (hinit := by
      refine Pipeline.initEach Lno lvno fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME at any float instance: the run, read at each of the fifteen arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W4_untouched m ρ c main_arg0 (by decide) (by decide) (by decide) (by decide)),
     (h c _ (mem_uc main_arg1 (by decide))).trans (W4_untouched m ρ c main_arg1 (by decide) (by decide) (by decide) (by decide)),
     (h c _ (mem_uc main_arg2 (by decide))).trans (W4_main_arg2 m ρ c),
     (h c _ (mem_uc main_arg3 (by decide))).trans (W4_untouched m ρ c main_arg3 (by decide) (by decide) (by decide) (by decide)),
     (h c _ (mem_uc main_arg4 (by decide))).trans (W4_untouched m ρ c main_arg4 (by decide) (by decide) (by decide) (by decide)),
     (h c _ (mem_uc main_arg5 (by decide))).trans (W4_untouched m ρ c main_arg5 (by decide) (by decide) (by decide) (by decide)),
     (h c _ (mem_uc main_arg6 (by decide))).trans (W4_untouched m ρ c main_arg6 (by decide) (by decide) (by decide) (by decide)),
     (h c _ (mem_uc main_arg7 (by decide))).trans (W4_untouched m ρ c main_arg7 (by decide) (by decide) (by decide) (by decide)),
     (h c _ (mem_uc main_arg8 (by decide))).trans (W4_untouched m ρ c main_arg8 (by decide) (by decide) (by decide) (by decide)),
     (h c _ (mem_uc main_arg9 (by decide))).trans (W4_untouched m ρ c main_arg9 (by decide) (by decide) (by decide) (by decide)),
     (h c _ (mem_uc main_arg10 (by decide))).trans (W4_untouched m ρ c main_arg10 (by decide) (by decide) (by decide) (by decide)),
     (h c _ (mem_uc main_arg11 (by decide))).trans (W4_untouched m ρ c main_arg11 (by decide) (by decide) (by decide) (by decide)),
     (h c _ (mem_uc main_arg12 (by decide))).trans (W4_untouched m ρ c main_arg12 (by decide) (by decide) (by decide) (by decide)),
     (h c _ (mem_uc main_arg13 (by decide))).trans (W4_untouched m ρ c main_arg13 (by decide) (by decide) (by decide) (by decide)),
     (h c _ (mem_uc main_arg14 (by decide))).trans (W4_untouched m ρ c main_arg14 (by decide) (by decide) (by decide) (by decide))⟩)
    (run_all m ρ)

end Cert.KernelIdeal.Hand

end
-- ==== Proof.Spec.lean ====
/-
  What both programs compute, index by index, on the extended reals.

  One step of a peephole LSTM on a batch of 4096 rows with hidden width 1024, followed by an output projection to
  32000 columns. With x, h, c the input, hidden and cell rows, WX and WH the 1024 × 4096 matrices that hold the four
  input-side and the four hidden-side gate weights side by side (forget, input, candidate, output: columns
  0, 1024, 2048, 3072 onward), and pf, pi, po the three peephole matrices:

    pre(r, q)  = Σₖ x(r,k)·WX(k,q) + Σₖ h(r,k)·WH(k,q)
    Ct(r, j)   = σ(pre(r, j) + Σₖ c(r,k)·pf(k,j)) · c(r,j) + σ(pre(r, 1024+j) + Σₖ c(r,k)·pi(k,j)) · tanh(pre(r, 2048+j))
    Ht(r, j)   = σ(pre(r, 3072+j) + Σₖ Ct(r,k)·po(k,j)) · tanh(Ct(r,j))
    Yt(r, v)   = σ(Σₖ Ht(r,k)·wop(k,v))

  where σ is the logistic function 1 / (1 + e^(−z)) with its values 0 and 1 at the infinities. Every sum is a plain finite
  sum of extended reals, so no law beyond reading each operation at an index is needed to compare two programs that
  compute these values in this order.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An a × b array of extended reals. -/
abbrev Mat (a b : Nat) : Type := (⟨2, ![a, b]⟩ : Shape).Idx → EReal

/-- The matrix product at row r, column q: Σₖ a(r,k)·b(k,q). -/
def dot {M K N : Nat} (a : Mat M K) (b : Mat K N) (r : Fin M) (q : Fin N) : EReal :=
  ∑ k : Fin K, a (ix2 r k) * b (ix2 k q)

/-- Column off + j of the 4096 fused gate columns, for one of the four gate offsets. -/
def gcol (off : Nat) (hoff : off + 1024 ≤ 4096) (j : Fin 1024) : Fin 4096 := ⟨off + j.val, by omega⟩

variable (x h c : Mat 4096 1024) (WX WH : Mat 1024 4096) (pf pi po : Mat 1024 1024) (wop : Mat 1024 32000)

/-- The fused gate pre-activations x·WX + h·WH. -/
def pre (r : Fin 4096) (q : Fin 4096) : EReal := dot x WX r q + dot h WH r q

/-- The new cell state at row r, column j. -/
def cell (r : Fin 4096) (j : Fin 1024) : EReal :=
  Ideal.logistic (pre x h WX WH r (gcol 0 (by omega) j) + dot c pf r j) * c (ix2 r j)
    + Ideal.logistic (pre x h WX WH r (gcol 1024 (by omega) j) + dot c pi r j) * Ideal.tanh (pre x h WX WH r (gcol 2048 (by omega) j))

/-- The new cell state as an array. -/
def Ct : Mat 4096 1024 := fun i => cell x h c WX WH pf pi (i 0) (i 1)

/-- The new hidden state at row r, column j. -/
def hidden (r : Fin 4096) (j : Fin 1024) : EReal :=
  Ideal.logistic (pre x h WX WH r (gcol 3072 (by omega) j) + dot (Ct x h c WX WH pf pi) po r j) * Ideal.tanh (cell x h c WX WH pf pi r j)

/-- The new hidden state as an array. -/
def Ht : Mat 4096 1024 := fun i => hidden x h c WX WH pf pi po (i 0) (i 1)

/-- The projected output as an array. -/
def Yt : Mat 4096 32000 := fun i => Ideal.logistic (dot (Ht x h c WX WH pf pi po) wop (i 0) (i 1))

/-- The float pattern of 1.0 denotes the real number one. -/
theorem ofBits_one : Ideal.ofBits .f32 0x3F800000#32 = 1 := by
  simp [Ideal.ofBits, Ideal.ieee]
  rw [← EReal.coe_mul, ← EReal.coe_one]
  congr 1
  norm_num

/-- The logistic function written out with the pattern of 1.0, as a host program spells it: 1.0 / (1.0 + e^(−z)). -/
theorem logistic_spelt (z : EReal) :
    Ideal.div (Ideal.ofBits .f32 0x3F800000#32) (Ideal.ofBits .f32 0x3F800000#32 + Ideal.exp (-z)) = Ideal.logistic z := by
  rw [ofBits_one]; rfl

end Cert.Spec

end
-- ==== Proof.LibMatmul2.lean ====
/-
  A rank-2 by rank-2 `tpu.matmul` into the zero accumulator, read at an index at the ideal values.

  For a dimension record that contracts the left operand's second axis against the right operand's first, with no batch
  axis, the product of an [M, K] and a [K, N] matrix read at (p, h) is the plain sum  Σₖ a (p, k) · b (k, h)  over the
  extended reals. The record's four coordinate facts (which operand coordinate is the output's row, the output's column,
  the contraction index) are hypotheses: each is decided on a literal record by whoever instantiates the lemma.
-/
import Idealize.ShloMosaic.PureOps.Ideal.Laws
import Idealize.ShloMosaic.Lib.ValueIdx

noncomputable section

namespace Cert.LibMatmul2

open Idealize.ShloMosaic Idealize.ShloMosaic.ValueIdx

/-- The matrix product into a zero accumulator at (p, h) is Σₖ a (p, k) · b (k, h). -/
theorem matmul_zero_apply {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (a : FVec Ideal ⟨2, ![M, K]⟩ φ₁) (b : FVec Ideal ⟨2, ![K, N]⟩ φ₂) (p : Fin M) (h : Fin N) :
    matmul D none a b (constant ⟨2, ![M, N]⟩ .f32 0x00000000#32) (ix2 p h) = ∑ k : Fin K, a (ix2 p k) * b (ix2 k h) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p h) ((contrEquiv1 D K hr hs).symm k) = ix2 p k := funext fun x => Fin.ext (by
    match x with
    | ⟨0, _⟩ => exact hl0 _ _
    | ⟨1, _⟩ => exact (hl1 _ _).trans hk)
  have er : D.rhsIdx (ix2 p h) ((contrEquiv1 D K hr hs).symm k) = ix2 k h := funext fun x => Fin.ext (by
    match x with
    | ⟨0, _⟩ => exact (hr0 _ _).trans hk
    | ⟨1, _⟩ => exact hr1 _ _)
  rw [el, er]

end Cert.LibMatmul2

end
-- ==== Proof.IdealCell.lean ====
/-
  The cell region's two output arrays after its run, as the specification's arrays of the region's entry contents:
  block t of Ct (rows 128·t … 128·t + 127) is the body's stored value at point t, which at row p, column j is the
  specification's cell value at row 128·t + p; likewise Ht. The 32 row blocks tile the 4096 rows.
-/
import proofs.«175886_j51951924412948_1_alg».proof.Proof.IdealBody
import proofs.«175886_j51951924412948_1_alg».proof.Proof.Spec
import proofs.«175886_j51951924412948_1_alg».proof.Proof.LibMatmul2
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The specification on a block of rows

The cell and hidden values at row r depend on x, h, c only through their row r. Stated for arrays of any number of
rows, the same formulas describe both the 4096-row arrays and a 128-row block of them. -/

section Rows
variable {M : Nat} (x h c : Spec.Mat M 1024) (WX WH : Spec.Mat 1024 4096) (pf pi po : Spec.Mat 1024 1024)

/-- The fused gate pre-activations of row r. -/
def rowPre (r : Fin M) (q : Fin 4096) : EReal := Spec.dot x WX r q + Spec.dot h WH r q

/-- The new cell state of row r at column j. -/
def rowCell (r : Fin M) (j : Fin 1024) : EReal :=
  Ideal.logistic (rowPre x h WX WH r (Spec.gcol 0 (by omega) j) + Spec.dot c pf r j) * c (ix2 r j)
    + Ideal.logistic (rowPre x h WX WH r (Spec.gcol 1024 (by omega) j) + Spec.dot c pi r j)
        * Ideal.tanh (rowPre x h WX WH r (Spec.gcol 2048 (by omega) j))

/-- The new hidden state of row r at column j. -/
def rowHidden (r : Fin M) (j : Fin 1024) : EReal :=
  Ideal.logistic (rowPre x h WX WH r (Spec.gcol 3072 (by omega) j)
      + ∑ k : Fin 1024, rowCell x h c WX WH pf pi r k * po (ix2 k j))
    * Ideal.tanh (rowCell x h c WX WH pf pi r j)

end Rows

/-- On the full arrays the row form is the specification's cell value. -/
theorem cell_eq_row (x h c : Spec.Mat 4096 1024) (WX WH : Spec.Mat 1024 4096) (pf pi : Spec.Mat 1024 1024)
    (r : Fin 4096) (j : Fin 1024) : Spec.cell x h c WX WH pf pi r j = rowCell x h c WX WH pf pi r j := rfl

/-- On the full arrays the row form is the specification's hidden value. -/
theorem hidden_eq_row (x h c : Spec.Mat 4096 1024) (WX WH : Spec.Mat 1024 4096) (pf pi po : Spec.Mat 1024 1024)
    (r : Fin 4096) (j : Fin 1024) : Spec.hidden x h c WX WH pf pi po r j = rowHidden x h c WX WH pf pi po r j := rfl

/-- The cell value at a row is the same for two families of arrays that agree on that row and on the weights. -/
theorem rowCell_congr {M M' : Nat} (x h c : Spec.Mat M 1024) (x' h' c' : Spec.Mat M' 1024)
    (WX WH WX' WH' : Spec.Mat 1024 4096) (pf pi pf' pi' : Spec.Mat 1024 1024) (r : Fin M) (r' : Fin M') (j j' : Fin 1024)
    (hx : ∀ k, x (ix2 r k) = x' (ix2 r' k)) (hh : ∀ k, h (ix2 r k) = h' (ix2 r' k)) (hc : ∀ k, c (ix2 r k) = c' (ix2 r' k))
    (hWX : ∀ k q, WX (ix2 k q) = WX' (ix2 k q)) (hWH : ∀ k q, WH (ix2 k q) = WH' (ix2 k q))
    (hpf : ∀ k q, pf (ix2 k q) = pf' (ix2 k q)) (hpi : ∀ k q, pi (ix2 k q) = pi' (ix2 k q)) (hj : j = j') :
    rowCell x h c WX WH pf pi r j = rowCell x' h' c' WX' WH' pf' pi' r' j' := by
  subst hj
  unfold rowCell rowPre Spec.dot
  simp only [hx, hh, hc, hWX, hWH, hpf, hpi]

/-- Likewise the hidden value. -/
theorem rowHidden_congr {M M' : Nat} (x h c : Spec.Mat M 1024) (x' h' c' : Spec.Mat M' 1024)
    (WX WH WX' WH' : Spec.Mat 1024 4096) (pf pi po pf' pi' po' : Spec.Mat 1024 1024) (r : Fin M) (r' : Fin M') (j j' : Fin 1024)
    (hx : ∀ k, x (ix2 r k) = x' (ix2 r' k)) (hh : ∀ k, h (ix2 r k) = h' (ix2 r' k)) (hc : ∀ k, c (ix2 r k) = c' (ix2 r' k))
    (hWX : ∀ k q, WX (ix2 k q) = WX' (ix2 k q)) (hWH : ∀ k q, WH (ix2 k q) = WH' (ix2 k q))
    (hpf : ∀ k q, pf (ix2 k q) = pf' (ix2 k q)) (hpi : ∀ k q, pi (ix2 k q) = pi' (ix2 k q))
    (hpo : ∀ k q, po (ix2 k q) = po' (ix2 k q)) (hj : j = j') :
    rowHidden x h c WX WH pf pi po r j = rowHidden x' h' c' WX' WH' pf' pi' po' r' j' := by
  subst hj
  have hcell : ∀ k, rowCell x h c WX WH pf pi r k = rowCell x' h' c' WX' WH' pf' pi' r' k := fun k =>
    rowCell_congr x h c x' h' c' WX WH WX' WH' pf pi pf' pi' r r' k k hx hh hc hWX hWH hpf hpi rfl
  unfold rowHidden rowPre Spec.dot
  simp only [hcell, hx, hh, hWX, hWH, hpo]

/-! ## The body's arithmetic at an index -/

theorem hz2c : (![0, 0] : Fin 2 → Nat) = fun _ => 0 := funext fun a => by fin_cases a <;> rfl

/-- The logistic of a vector, read at an index. -/
theorem logistic_at {s : Shape} {φ : FTy} (a : FVec Ideal s φ) (i : s.Idx) : logistic a i = Ideal.logistic (a i) := rfl
/-- The hyperbolic tangent of a vector, read at an index. -/
theorem tanh_at {s : Shape} {φ : FTy} (a : FVec Ideal s φ) (i : s.Idx) : tanh a i = Ideal.tanh (a i) := rfl

/-! The 128 × 1024 by 1024 × 4096 product: which operand coordinate is which. -/

theorem wideL0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem wideL1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
theorem wideR0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
theorem wideR1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-! The 128 × 1024 by 1024 × 1024 product: which operand coordinate is which. -/

theorem sqL0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem sqL1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem sqR0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem sqR1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- The wide product into the zero accumulator at (p, q). -/
theorem wide_apply {φ₁ φ₂ : FTy} (a : FVec Ideal S128x1024 φ₁) (b : FVec Ideal S1024x4096 φ₂) (p : Fin 128) (q : Fin 4096) :
    matmul (F := Ideal) dot_S128x1024_S1024x4096_S128x4096_1_0_0_1_n_n none a b (constant S128x4096 .f32 0x00000000#32) (ix2 p q)
      = ∑ k : Fin 1024, a (ix2 p k) * b (ix2 k q) :=
  Cert.LibMatmul2.matmul_zero_apply dot_S128x1024_S1024x4096_S128x4096_1_0_0_1_n_n rfl rfl wideL0 wideL1 wideR0 wideR1 a b p q

/-- The square product into the zero accumulator at (p, j). -/
theorem sq_apply {φ₁ φ₂ : FTy} (a : FVec Ideal S128x1024 φ₁) (b : FVec Ideal S1024x1024 φ₂) (p : Fin 128) (j : Fin 1024) :
    matmul (F := Ideal) dot_S128x1024_S1024x1024_S128x1024_1_0_0_1_n_n none a b (constant S128x1024 .f32 0x00000000#32) (ix2 p j)
      = ∑ k : Fin 1024, a (ix2 p k) * b (ix2 k j) :=
  Cert.LibMatmul2.matmul_zero_apply dot_S128x1024_S1024x1024_S128x1024_1_0_0_1_n_n rfl rfl sqL0 sqL1 sqR0 sqR1 a b p j

/-- A gate's 1024 columns cut out of the 4096 fused columns, read at (p, j): column off + j of the operand. -/
theorem gate_slice_apply (off : Nat) (hoff : off + 1024 ≤ 4096) (y : FVec Ideal S128x4096 .f32)
    (hs : S128x4096.Slices ![0, off] S128x1024) (p : Fin 128) (j : Fin 1024) :
    extractStridedSlice S128x1024 ![0, off] y hs (ix2 p j) = y (ix2 p (Spec.gcol off hoff j)) :=
  extractStridedSlice_apply ![0, off] y hs (ix2 p j) (ix2 p (Spec.gcol off hoff j)) (fun a => match a with
    | ⟨0, _⟩ => by show p.val = 0 + p.val; omega
    | ⟨1, _⟩ => by show off + j.val = off + j.val; rfl)

/-- The fused pre-activations of the block at (p, q). -/
theorem pay2_apply (x0 x1 : Vec Ideal S128x1024 .bf16) (x3 x4 : Vec Ideal S1024x4096 .bf16) (p : Fin 128) (q : Fin 4096) :
    k0_pay2 (F := Ideal) x0 x1 x3 x4 (ix2 p q) = rowPre (M := 128) x0 x1 x3 x4 p q := by
  unfold k0_pay2
  rw [shapeCast_self, shapeCast_self, shapeCast_self, shapeCast_self]
  show matmul (F := Ideal) dot_S128x1024_S1024x4096_S128x4096_1_0_0_1_n_n none x0 x3 (constant S128x4096 .f32 0x00000000#32) (ix2 p q)
      + matmul (F := Ideal) dot_S128x1024_S1024x4096_S128x4096_1_0_0_1_n_n none x1 x4 (constant S128x4096 .f32 0x00000000#32) (ix2 p q) = _
  rw [wide_apply, wide_apply]
  rfl

/-- The body's new cell state at (p, j) is the specification's cell value of row p of the loaded blocks. -/
theorem pay3_apply (x0 x1 : Vec Ideal S128x1024 .bf16) (x2 : Vec Ideal S128x1024 .f32) (x3 x4 : Vec Ideal S1024x4096 .bf16)
    (x5 x6 : Vec Ideal S1024x1024 .bf16) (p : Fin 128) (j : Fin 1024) :
    k0_pay3 (F := Ideal) x0 x1 x2 x3 x4 x5 x6 (ix2 p j) = rowCell (M := 128) x0 x1 x2 x3 x4 x5 x6 p j := by
  unfold k0_pay3
  rw [shapeCast_self, shapeCast_self]
  simp only [addf_apply, mulf_apply, logistic_at, tanh_at]
  rw [gate_slice_apply 0 (by omega), gate_slice_apply 1024 (by omega), gate_slice_apply 2048 (by omega)]
  rw [pay2_apply, pay2_apply, pay2_apply, sq_apply, sq_apply]
  rfl

/-- The body's new hidden state at (p, j) is the specification's hidden value of row p of the loaded blocks. -/
theorem pay1_apply (x0 x1 : Vec Ideal S128x1024 .bf16) (x2 : Vec Ideal S128x1024 .f32) (x3 x4 : Vec Ideal S1024x4096 .bf16)
    (x5 x6 x7 : Vec Ideal S1024x1024 .bf16) (p : Fin 128) (j : Fin 1024) :
    k0_pay1 (F := Ideal) (k0_pay4 x0 x1 x2 x3 x4 x5 x6 x7) (k0_pay5 x0 x1 x2 x3 x4 x5 x6) (ix2 p j)
      = rowHidden (M := 128) x0 x1 x2 x3 x4 x5 x6 x7 p j := by
  unfold k0_pay1 k0_pay4 k0_pay5
  rw [shapeCast_self]
  simp only [addf_apply, mulf_apply, logistic_at, tanh_at]
  rw [gate_slice_apply 3072 (by omega), pay2_apply, sq_apply, pay3_apply]
  simp only [truncf_apply, pay3_apply]
  rfl

/-! ## From row blocks to the arrays -/

/-- The printed index maps over the grid: the three row-block inputs and the hidden output follow the cell output's
    row block and sit at column block 0; the five weights are whole (block 0 on both axes); the row block is below 32. -/
theorem cell_idx_facts : ∀ t : Fin cfg0.N,
    (win0_0.index t (0 : Fin 2) = win0_9.index t (0 : Fin 2) ∧ win0_0.index t (1 : Fin 2) = 0)
    ∧ (win0_1.index t (0 : Fin 2) = win0_9.index t (0 : Fin 2) ∧ win0_1.index t (1 : Fin 2) = 0)
    ∧ (win0_2.index t (0 : Fin 2) = win0_9.index t (0 : Fin 2) ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = win0_9.index t (0 : Fin 2) ∧ win0_8.index t (1 : Fin 2) = 0)
    ∧ (win0_9.index t (0 : Fin 2) ≤ 31 ∧ win0_9.index t (1 : Fin 2) = 0) :=
  (by decide +kernel : ∀ t : Fin grid0.N, _)

/-- Every row block is some point's, for the cell output -/
theorem cell_idx_onto9 : ∀ q0 : Fin 32, ∃ t : Fin cfg0.N, win0_9.index t = ![q0.val, 0] :=
  (by decide +kernel : ∀ q0 : Fin 32, ∃ t : Fin grid0.N, win0_9.index t = ![q0.val, 0])
/-- and for the hidden output. -/
theorem cell_idx_onto8 : ∀ q0 : Fin 32, ∃ t : Fin cfg0.N, win0_8.index t = ![q0.val, 0] :=
  (by decide +kernel : ∀ q0 : Fin 32, ∃ t : Fin grid0.N, win0_8.index t = ![q0.val, 0])

/-- What point `t` writes back to Ct is row block `t` of the specification's cell array of the region's entry contents. -/
theorem flushed_Ct (c : Dev nD) (t : Fin cfg0.N) :
    (dat0 V c).flushed 9 t = ((cfg0.win 9).blk t).view.read (Elt Ideal)
      (Spec.Ct (V c main_v8) (V c main_v9) (V c main_arg2) (V c main_v1) (V c main_v3) (V c main_v4) (V c main_v5)) := by
  show (cfg0.win 9).cut (grid0.coords t) ((dat0 V c).after 9 t) = _
  rw [after0_9]
  unfold out0_9 cellNew
  rw [View.canon_unit_zero hz2c]
  simp only [View.ld_unit_zero (S := S128x1024) hz2c, View.ld_unit_zero (S := S1024x4096) hz2c, View.ld_unit_zero (S := S1024x1024) hz2c]
  obtain ⟨⟨e00, e01⟩, ⟨e10, e11⟩, ⟨e20, e21⟩, ⟨e30, e31⟩, ⟨e40, e41⟩, ⟨e50, e51⟩, ⟨e60, e61⟩, ⟨e70, e71⟩, ⟨e80, e81⟩, ⟨e90, e91⟩⟩ := cell_idx_facts t
  funext j
  obtain ⟨p, v, rfl⟩ : ∃ (p : Fin 128) (v : Fin 1024), j = ix2 p v := ⟨j 0, j 1, eq_ix2 j⟩
  refine (pay3_apply (iblk0 V c 0 t) (iblk0 V c 1 t) (iblk0 V c 2 t) (iblk0 V c 3 t) (iblk0 V c 4 t) (iblk0 V c 5 t) (iblk0 V c 6 t) p v).trans ?_
  show _ = rowCell (M := 4096) (V c main_v8) (V c main_v9) (V c main_arg2) (V c main_v1) (V c main_v3) (V c main_v4) (V c main_v5)
    ((((cfg0.win 9).blk t).view.emb (ix2 p v)) 0) ((((cfg0.win 9).blk t).view.emb (ix2 p v)) 1)
  refine rowCell_congr (M := 128) (M' := 4096) _ _ _ _ _ _ _ _ _ _ _ _ _ _ p _ v _ (fun k => ?_) (fun k => ?_) (fun k => ?_)
    (fun k q => ?_) (fun k q => ?_) (fun k q => ?_) (fun k q => ?_) (Fin.ext ?_)
  · show V c main_v8 (((cfg0.win 0).blk t).view.emb (ix2 p k)) = _
    refine congrArg _ (funext fun a => Fin.ext ?_)
    match a with
    | ⟨0, _⟩ => show win0_0.index t (0 : Fin 2) * 128 + 1 * p.val = win0_9.index t (0 : Fin 2) * 128 + 1 * p.val; omega
    | ⟨1, _⟩ => show win0_0.index t (1 : Fin 2) * 1024 + 1 * k.val = k.val; omega
  · show V c main_v9 (((cfg0.win 1).blk t).view.emb (ix2 p k)) = _
    refine congrArg _ (funext fun a => Fin.ext ?_)
    match a with
    | ⟨0, _⟩ => show win0_1.index t (0 : Fin 2) * 128 + 1 * p.val = win0_9.index t (0 : Fin 2) * 128 + 1 * p.val; omega
    | ⟨1, _⟩ => show win0_1.index t (1 : Fin 2) * 1024 + 1 * k.val = k.val; omega
  · show V c main_arg2 (((cfg0.win 2).blk t).view.emb (ix2 p k)) = _
    refine congrArg _ (funext fun a => Fin.ext ?_)
    match a with
    | ⟨0, _⟩ => show win0_2.index t (0 : Fin 2) * 128 + 1 * p.val = win0_9.index t (0 : Fin 2) * 128 + 1 * p.val; omega
    | ⟨1, _⟩ => show win0_2.index t (1 : Fin 2) * 1024 + 1 * k.val = k.val; omega
  · show V c main_v1 (((cfg0.win 3).blk t).view.emb (ix2 k q)) = _
    refine congrArg _ (funext fun a => Fin.ext ?_)
    match a with
    | ⟨0, _⟩ => show win0_3.index t (0 : Fin 2) * 1024 + 1 * k.val = k.val; omega
    | ⟨1, _⟩ => show win0_3.index t (1 : Fin 2) * 4096 + 1 * q.val = q.val; omega
  · show V c main_v3 (((cfg0.win 4).blk t).view.emb (ix2 k q)) = _
    refine congrArg _ (funext fun a => Fin.ext ?_)
    match a with
    | ⟨0, _⟩ => show win0_4.index t (0 : Fin 2) * 1024 + 1 * k.val = k.val; omega
    | ⟨1, _⟩ => show win0_4.index t (1 : Fin 2) * 4096 + 1 * q.val = q.val; omega
  · show V c main_v4 (((cfg0.win 5).blk t).view.emb (ix2 k q)) = _
    refine congrArg _ (funext fun a => Fin.ext ?_)
    match a with
    | ⟨0, _⟩ => show win0_5.index t (0 : Fin 2) * 1024 + 1 * k.val = k.val; omega
    | ⟨1, _⟩ => show win0_5.index t (1 : Fin 2) * 1024 + 1 * q.val = q.val; omega
  · show V c main_v5 (((cfg0.win 6).blk t).view.emb (ix2 k q)) = _
    refine congrArg _ (funext fun a => Fin.ext ?_)
    match a with
    | ⟨0, _⟩ => show win0_6.index t (0 : Fin 2) * 1024 + 1 * k.val = k.val; omega
    | ⟨1, _⟩ => show win0_6.index t (1 : Fin 2) * 1024 + 1 * q.val = q.val; omega
  · show v.val = win0_9.index t (1 : Fin 2) * 1024 + 1 * v.val; omega

/-- What point `t` writes back to Ht is row block `t` of the specification's hidden array of the region's entry contents. -/
theorem flushed_Ht (c : Dev nD) (t : Fin cfg0.N) :
    (dat0 V c).flushed 8 t = ((cfg0.win 8).blk t).view.read (Elt Ideal)
      (Spec.Ht (V c main_v8) (V c main_v9) (V c main_arg2) (V c main_v1) (V c main_v3) (V c main_v4) (V c main_v5) (V c main_v6)) := by
  show (cfg0.win 8).cut (grid0.coords t) ((dat0 V c).after 8 t) = _
  rw [after0_8]
  unfold out0_8 hiddenNew
  rw [View.canon_unit_zero hz2c]
  simp only [View.ld_unit_zero (S := S128x1024) hz2c, View.ld_unit_zero (S := S1024x4096) hz2c, View.ld_unit_zero (S := S1024x1024) hz2c]
  obtain ⟨⟨e00, e01⟩, ⟨e10, e11⟩, ⟨e20, e21⟩, ⟨e30, e31⟩, ⟨e40, e41⟩, ⟨e50, e51⟩, ⟨e60, e61⟩, ⟨e70, e71⟩, ⟨e80, e81⟩, ⟨e90, e91⟩⟩ := cell_idx_facts t
  funext j
  obtain ⟨p, v, rfl⟩ : ∃ (p : Fin 128) (v : Fin 1024), j = ix2 p v := ⟨j 0, j 1, eq_ix2 j⟩
  refine (pay1_apply (iblk0 V c 0 t) (iblk0 V c 1 t) (iblk0 V c 2 t) (iblk0 V c 3 t) (iblk0 V c 4 t) (iblk0 V c 5 t) (iblk0 V c 6 t) (iblk0 V c 7 t) p v).trans ?_
  show _ = rowHidden (M := 4096) (V c main_v8) (V c main_v9) (V c main_arg2) (V c main_v1) (V c main_v3) (V c main_v4) (V c main_v5) (V c main_v6)
    ((((cfg0.win 8).blk t).view.emb (ix2 p v)) 0) ((((cfg0.win 8).blk t).view.emb (ix2 p v)) 1)
  refine rowHidden_congr (M := 128) (M' := 4096) _ _ _ _ _ _ _ _ _ _ _ _ _ _ _ _ p _ v _ (fun k => ?_) (fun k => ?_) (fun k => ?_)
    (fun k q => ?_) (fun k q => ?_) (fun k q => ?_) (fun k q => ?_) (fun k q => ?_) (Fin.ext ?_)
  · show V c main_v8 (((cfg0.win 0).blk t).view.emb (ix2 p k)) = _
    refine congrArg _ (funext fun a => Fin.ext ?_)
    match a with
    | ⟨0, _⟩ => show win0_0.index t (0 : Fin 2) * 128 + 1 * p.val = win0_8.index t (0 : Fin 2) * 128 + 1 * p.val; omega
    | ⟨1, _⟩ => show win0_0.index t (1 : Fin 2) * 1024 + 1 * k.val = k.val; omega
  · show V c main_v9 (((cfg0.win 1).blk t).view.emb (ix2 p k)) = _
    refine congrArg _ (funext fun a => Fin.ext ?_)
    match a with
    | ⟨0, _⟩ => show win0_1.index t (0 : Fin 2) * 128 + 1 * p.val = win0_8.index t (0 : Fin 2) * 128 + 1 * p.val; omega
    | ⟨1, _⟩ => show win0_1.index t (1 : Fin 2) * 1024 + 1 * k.val = k.val; omega
  · show V c main_arg2 (((cfg0.win 2).blk t).view.emb (ix2 p k)) = _
    refine congrArg _ (funext fun a => Fin.ext ?_)
    match a with
    | ⟨0, _⟩ => show win0_2.index t (0 : Fin 2) * 128 + 1 * p.val = win0_8.index t (0 : Fin 2) * 128 + 1 * p.val; omega
    | ⟨1, _⟩ => show win0_2.index t (1 : Fin 2) * 1024 + 1 * k.val = k.val; omega
  · show V c main_v1 (((cfg0.win 3).blk t).view.emb (ix2 k q)) = _
    refine congrArg _ (funext fun a => Fin.ext ?_)
    match a with
    | ⟨0, _⟩ => show win0_3.index t (0 : Fin 2) * 1024 + 1 * k.val = k.val; omega
    | ⟨1, _⟩ => show win0_3.index t (1 : Fin 2) * 4096 + 1 * q.val = q.val; omega
  · show V c main_v3 (((cfg0.win 4).blk t).view.emb (ix2 k q)) = _
    refine congrArg _ (funext fun a => Fin.ext ?_)
    match a with
    | ⟨0, _⟩ => show win0_4.index t (0 : Fin 2) * 1024 + 1 * k.val = k.val; omega
    | ⟨1, _⟩ => show win0_4.index t (1 : Fin 2) * 4096 + 1 * q.val = q.val; omega
  · show V c main_v4 (((cfg0.win 5).blk t).view.emb (ix2 k q)) = _
    refine congrArg _ (funext fun a => Fin.ext ?_)
    match a with
    | ⟨0, _⟩ => show win0_5.index t (0 : Fin 2) * 1024 + 1 * k.val = k.val; omega
    | ⟨1, _⟩ => show win0_5.index t (1 : Fin 2) * 1024 + 1 * q.val = q.val; omega
  · show V c main_v5 (((cfg0.win 6).blk t).view.emb (ix2 k q)) = _
    refine congrArg _ (funext fun a => Fin.ext ?_)
    match a with
    | ⟨0, _⟩ => show win0_6.index t (0 : Fin 2) * 1024 + 1 * k.val = k.val; omega
    | ⟨1, _⟩ => show win0_6.index t (1 : Fin 2) * 1024 + 1 * q.val = q.val; omega
  · show V c main_v6 (((cfg0.win 7).blk t).view.emb (ix2 k q)) = _
    refine congrArg _ (funext fun a => Fin.ext ?_)
    match a with
    | ⟨0, _⟩ => show win0_7.index t (0 : Fin 2) * 1024 + 1 * k.val = k.val; omega
    | ⟨1, _⟩ => show win0_7.index t (1 : Fin 2) * 1024 + 1 * q.val = q.val; omega
  · show v.val = win0_8.index t (1 : Fin 2) * 1024 + 1 * v.val; omega

/-- An index of Ct is in point `t`'s row block iff each coordinate is in the block's range on its axis. -/
theorem mem_rows9 (t : Fin cfg0.N) (i : S4096x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v10_1).slice (win0_9.rect t)).set ↔ _
  rw [View.set_slice_whole, Rect.mem_set_unit]
  exact Iff.rfl

/-- Likewise for Ht. -/
theorem mem_rows8 (t : Fin cfg0.N) (i : S4096x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v10_0).slice (win0_8.rect t)).set ↔ _
  rw [View.set_slice_whole, Rect.mem_set_unit]
  exact Iff.rfl

/-- Every index of Ct lies in some point's row block: row r is in block r / 128. -/
theorem rows_cover9 (i : S4096x1024.Idx) :
    ∃ t : Fin cfg0.N, (cfg0.win 9).flush t = true ∧ i ∈ ((cfg0.win 9).blk t).view.set := by
  have hi0 : (i 0).val < 4096 := (i 0).isLt
  have hi1 : (i 1).val < 1024 := (i 1).isLt
  obtain ⟨t, ht⟩ := cell_idx_onto9 ⟨(i 0).val / 128, by omega⟩
  have q0 : win0_9.index t (0 : Fin 2) = (i 0).val / 128 := congrFun ht 0
  have q1 : win0_9.index t (1 : Fin 2) = 0 := congrFun ht 1
  refine ⟨t, flush0_9 t, ?_⟩
  rw [mem_rows9]
  intro a
  match a with
  | ⟨0, _⟩ => show win0_9.index t (0 : Fin 2) * 128 ≤ (i 0).val ∧ (i 0).val < win0_9.index t (0 : Fin 2) * 128 + 128; omega
  | ⟨1, _⟩ => show win0_9.index t (1 : Fin 2) * 1024 ≤ (i 1).val ∧ (i 1).val < win0_9.index t (1 : Fin 2) * 1024 + 1024; omega

/-- Likewise for Ht. -/
theorem rows_cover8 (i : S4096x1024.Idx) :
    ∃ t : Fin cfg0.N, (cfg0.win 8).flush t = true ∧ i ∈ ((cfg0.win 8).blk t).view.set := by
  have hi0 : (i 0).val < 4096 := (i 0).isLt
  have hi1 : (i 1).val < 1024 := (i 1).isLt
  obtain ⟨t, ht⟩ := cell_idx_onto8 ⟨(i 0).val / 128, by omega⟩
  have q0 : win0_8.index t (0 : Fin 2) = (i 0).val / 128 := congrFun ht 0
  have q1 : win0_8.index t (1 : Fin 2) = 0 := congrFun ht 1
  refine ⟨t, flush0_8 t, ?_⟩
  rw [mem_rows8]
  intro a
  match a with
  | ⟨0, _⟩ => show win0_8.index t (0 : Fin 2) * 128 ≤ (i 0).val ∧ (i 0).val < win0_8.index t (0 : Fin 2) * 128 + 128; omega
  | ⟨1, _⟩ => show win0_8.index t (1 : Fin 2) * 1024 ≤ (i 1).val ∧ (i 1).val < win0_8.index t (1 : Fin 2) * 1024 + 1024; omega

/-- The new cell state array after the cell region, from the region's entry contents. -/
theorem final_Ct (c : Dev nD) :
    ((dat0 V c).arrAt 9 cfg0.N : Spec.Mat 4096 1024)
      = Spec.Ct (V c main_v8) (V c main_v9) (V c main_arg2) (V c main_v1) (V c main_v3) (V c main_v4) (V c main_v5) :=
  (dat0 V c).arrAt_eq_of_cover 9 (Spec.Ct (V c main_v8) (V c main_v9) (V c main_arg2) (V c main_v1) (V c main_v3) (V c main_v4) (V c main_v5))
    (fun t _ => flushed_Ct V c t) rows_cover9

/-- The new hidden state array after the cell region, from the region's entry contents. -/
theorem final_Ht (c : Dev nD) :
    ((dat0 V c).arrAt 8 cfg0.N : Spec.Mat 4096 1024)
      = Spec.Ht (V c main_v8) (V c main_v9) (V c main_arg2) (V c main_v1) (V c main_v3) (V c main_v4) (V c main_v5) (V c main_v6) :=
  (dat0 V c).arrAt_eq_of_cover 8 (Spec.Ht (V c main_v8) (V c main_v9) (V c main_arg2) (V c main_v1) (V c main_v3) (V c main_v4) (V c main_v5) (V c main_v6))
    (fun t _ => flushed_Ht V c t) rows_cover8

end Cert.KernelIdeal.Hand

end
-- ==== Proof.IdealProj.lean ====
/-
  The projection region's output array after its run. The grid is 10 column tiles by 8 row tiles, the column tile the
  outer coordinate. At a point with column tile jv and row tile ib the body reads rows 512·ib … of the rounded hidden
  state and columns 3200·jv … of the weight, and stores σ of their product; at (p, v) of the tile that is
  σ(Σₖ ht(512·ib + p, k) · w(k, 3200·jv + v)). The 80 tiles cover the 4096 × 32000 array.
-/
import proofs.«175886_j51951924412948_1_alg».proof.Proof.IdealBody
import proofs.«175886_j51951924412948_1_alg».proof.Proof.Spec
import proofs.«175886_j51951924412948_1_alg».proof.Proof.LibMatmul2
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ## The projection's matrix product: which operand coordinate is which -/

theorem projL0 (i : S512x3200.Idx) (q : dot_S512x1024_S1024x3200_S512x3200_1_0_0_1_n_n.contr.Idx) :
    (dot_S512x1024_S1024x3200_S512x3200_1_0_0_1_n_n.lhsIdx i q 0).val = (i 0).val := by
  unfold DotDims.lhsIdx
  rw [dif_neg (show ¬(0 : Fin S512x1024.rank) ∈ dot_S512x1024_S1024x3200_S512x3200_1_0_0_1_n_n.lhsBatch by decide), dif_pos (show (0 : Fin S512x1024.rank) ∈ dot_S512x1024_S1024x3200_S512x3200_1_0_0_1_n_n.lhsNonContracting by decide)]
  rfl
theorem projL1 (i : S512x3200.Idx) (q : dot_S512x1024_S1024x3200_S512x3200_1_0_0_1_n_n.contr.Idx) :
    (dot_S512x1024_S1024x3200_S512x3200_1_0_0_1_n_n.lhsIdx i q 1).val = (q ⟨0, by decide⟩).val :=
  dot_S512x1024_S1024x3200_S512x3200_1_0_0_1_n_n.lhsIdx_val_of_single rfl i q
theorem projR0 (i : S512x3200.Idx) (q : dot_S512x1024_S1024x3200_S512x3200_1_0_0_1_n_n.contr.Idx) :
    (dot_S512x1024_S1024x3200_S512x3200_1_0_0_1_n_n.rhsIdx i q 0).val = (q ⟨0, by decide⟩).val :=
  dot_S512x1024_S1024x3200_S512x3200_1_0_0_1_n_n.rhsIdx_val_of_single rfl i q
theorem projR1 (i : S512x3200.Idx) (q : dot_S512x1024_S1024x3200_S512x3200_1_0_0_1_n_n.contr.Idx) :
    (dot_S512x1024_S1024x3200_S512x3200_1_0_0_1_n_n.rhsIdx i q 1).val = (i 1).val := by
  unfold DotDims.rhsIdx
  rw [dif_neg (show ¬(1 : Fin S1024x3200.rank) ∈ dot_S512x1024_S1024x3200_S512x3200_1_0_0_1_n_n.rhsBatch by decide), dif_pos (show (1 : Fin S1024x3200.rank) ∈ dot_S512x1024_S1024x3200_S512x3200_1_0_0_1_n_n.rhsNonContracting by decide)]
  rfl

/-- The tile's stored value at (p, v): σ(Σₖ ht(p,k) · w(k,v)) of the two loaded blocks. -/
theorem tile_apply (x0 : Vec Ideal S512x1024 .bf16) (x1 : Vec Ideal S1024x3200 .bf16) (p : Fin 512) (v : Fin 3200) :
    k1_pay1 (F := Ideal) x0 x1 (ix2 p v) = Ideal.logistic (∑ k : Fin 1024, x0 (ix2 p k) * x1 (ix2 k v)) := by
  unfold k1_pay1
  rw [shapeCast_self, shapeCast_self]
  show Ideal.logistic (matmul (F := Ideal) dot_S512x1024_S1024x3200_S512x3200_1_0_0_1_n_n none x0 x1 (constant S512x3200 .f32 0x00000000#32) (ix2 p v)) = _
  exact congrArg Ideal.logistic
    (Cert.LibMatmul2.matmul_zero_apply dot_S512x1024_S1024x3200_S512x3200_1_0_0_1_n_n rfl rfl projL0 projL1 projR0 projR1 x0 x1 p v)

/-! ## From tiles to the array -/

/-- The specification's projected array of a hidden-state array and a weight. -/
def projOf (ht : Spec.Mat 4096 1024) (w : Spec.Mat 1024 32000) : Spec.Mat 4096 32000 :=
  fun i => Ideal.logistic (Spec.dot ht w (i 0) (i 1))

/-- The printed index maps over the grid: the hidden-state window follows the output's row tile, the weight window the
    output's column tile; the row tile is below 8 and the column tile below 10. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = win1_2.index t (1 : Fin 2)
    ∧ win1_2.index t (0 : Fin 2) ≤ 7 ∧ win1_2.index t (1 : Fin 2) ≤ 9 :=
  (by decide +kernel : ∀ t : Fin grid1.N, _)

/-- Every (row tile, column tile) pair is some point's. -/
theorem idx_onto : ∀ (q0 : Fin 8) (q1 : Fin 10), ∃ t : Fin cfg1.N, win1_2.index t = ![q0.val, q1.val] :=
  (by decide +kernel : ∀ (q0 : Fin 8) (q1 : Fin 10), ∃ t : Fin grid1.N, win1_2.index t = ![q0.val, q1.val])

/-- What point `t` writes back is tile `t` of the projected array of the region's entry contents. -/
theorem flushed_proj (c : Dev nD) (t : Fin cfg1.N) :
    (dat1 V c).flushed 2 t = ((cfg1.win 2).blk t).view.read (Elt Ideal) (projOf (V c main_v11) (V c main_v7)) := by
  show (cfg1.win 2).cut (grid1.coords t) ((dat1 V c).after 2 t) = _
  rw [after1_2]
  unfold out1_2
  rw [View.canon_unit_zero hz2]
  simp only [View.ld_unit_zero (S := S512x1024) hz2, View.ld_unit_zero (S := S1024x3200) hz2]
  obtain ⟨e0, e1, e2, e3, e4, e5⟩ := idx_facts t
  funext j
  obtain ⟨p, v, rfl⟩ : ∃ (p : Fin 512) (v : Fin 3200), j = ix2 p v := ⟨j 0, j 1, eq_ix2 j⟩
  refine (tile_apply (iblk1 V c 0 t) (iblk1 V c 1 t) p v).trans ?_
  show _ = Ideal.logistic (Spec.dot (V c main_v11) (V c main_v7) _ _)
  unfold Spec.dot
  refine congrArg Ideal.logistic (Finset.sum_congr rfl fun k _ => ?_)
  have h0 : iblk1 V c 0 t (ix2 p k) = V c main_v11 (ix2 ((((cfg1.win 2).blk t).view.emb (ix2 p v)) 0) k) := by
    show V c main_v11 (((cfg1.win 0).blk t).view.emb (ix2 p k)) = _
    refine congrArg _ (funext fun a => Fin.ext ?_)
    match a with
    | ⟨0, _⟩ => show win1_0.index t (0 : Fin 2) * 512 + 1 * p.val = win1_2.index t (0 : Fin 2) * 512 + 1 * p.val; omega
    | ⟨1, _⟩ => show win1_0.index t (1 : Fin 2) * 1024 + 1 * k.val = k.val; omega
  have h1 : iblk1 V c 1 t (ix2 k v) = V c main_v7 (ix2 k ((((cfg1.win 2).blk t).view.emb (ix2 p v)) 1)) := by
    show V c main_v7 (((cfg1.win 1).blk t).view.emb (ix2 k v)) = _
    refine congrArg _ (funext fun a => Fin.ext ?_)
    match a with
    | ⟨0, _⟩ => show win1_1.index t (0 : Fin 2) * 1024 + 1 * k.val = k.val; omega
    | ⟨1, _⟩ => show win1_1.index t (1 : Fin 2) * 3200 + 1 * v.val = win1_2.index t (1 : Fin 2) * 3200 + 1 * v.val; omega
  rw [h0, h1]

/-- An index of the array is in point `t`'s tile iff each coordinate is in the tile's range on its axis. -/
theorem mem_tile (t : Fin cfg1.N) (i : S4096x32000.Idx) :
    i ∈ ((cfg1.win 2).blk t).view.set ↔ ∀ a : Fin 2, win1_2.index t a * S512x3200.size a ≤ (i a).val ∧ (i a).val < win1_2.index t a * S512x3200.size a + S512x3200.size a := by
  show i ∈ ((View.whole main_v12).slice (win1_2.rect t)).set ↔ _
  rw [View.set_slice_whole, Rect.mem_set_unit]
  exact Iff.rfl

/-- Every index of the array lies in some point's tile. -/
theorem tiles_cover (i : S4096x32000.Idx) :
    ∃ t : Fin cfg1.N, (cfg1.win 2).flush t = true ∧ i ∈ ((cfg1.win 2).blk t).view.set := by
  have hi0 : (i 0).val < 4096 := (i 0).isLt
  have hi1 : (i 1).val < 32000 := (i 1).isLt
  obtain ⟨t, ht⟩ := idx_onto ⟨(i 0).val / 512, by omega⟩ ⟨(i 1).val / 3200, by omega⟩
  have q0 : win1_2.index t (0 : Fin 2) = (i 0).val / 512 := congrFun ht 0
  have q1 : win1_2.index t (1 : Fin 2) = (i 1).val / 3200 := congrFun ht 1
  refine ⟨t, flush1_2 t, ?_⟩
  rw [mem_tile]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 3200 ≤ (i 1).val ∧ (i 1).val < win1_2.index t (1 : Fin 2) * 3200 + 3200; omega

/-- The projected array after the projection region, from the region's entry contents. -/
theorem final_Yt (c : Dev nD) :
    ((dat1 V c).arrAt 2 cfg1.N : Spec.Mat 4096 32000) = projOf (V c main_v11) (V c main_v7) :=
  (dat1 V c).arrAt_eq_of_cover 2 (projOf (V c main_v11) (V c main_v7)) (fun t _ => flushed_proj V c t) tiles_cover

end Cert.KernelIdeal.Hand

end
-- ==== Proof.IdealValue.lean ====
/-
  The idealized kernel program's run with its three results named by the specification.
  The cell region is entered with x, h and the eight weights rounded to the narrow format, which at the ideal values is no
  change, and with the four input-side and the four hidden-side gate weights joined side by side; the projection region is
  entered with the cell region's hidden state (again rounded: no change) and the rounded output weight. So the two
  regions' arrays, each the specification's function of its region's entry contents, compose to the specification's
  Ct, Ht and Yt of the arguments.
-/
import proofs.«175886_j51951924412948_1_alg».proof.Proof.IdealRun
import proofs.«175886_j51951924412948_1_alg».proof.Proof.IdealCell
import proofs.«175886_j51951924412948_1_alg».proof.Proof.IdealProj
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

/-- Four 1024 × 1024 matrices side by side. -/
def cat4 (a b c d : Spec.Mat 1024 1024) : Spec.Mat 1024 4096 :=
  concatenate S1024x4096 1 [⟨S1024x1024, a⟩, ⟨S1024x1024, b⟩, ⟨S1024x1024, c⟩, ⟨S1024x1024, d⟩]
    concatenates_S1024x1024_S1024x1024_S1024x1024_S1024x1024_S1024x4096_d1

variable (m : (ℓ : Loc nD τ sig) → Buf (Elt Ideal) ℓ) (ρ : Dev nD → PrngReg)

/-! ## What the cell region is entered with -/

theorem entry_x (c : Dev nD) : (At1 m ρ c main_v8 : Spec.Mat 4096 1024) = m ((c.tc : Thread nD τ).loc main_arg0) := by
  show StableHlo.after hostOps0 (fun b => m ((c : Dev nD), b)) (Proc.devRef .tc main_v8) = _
  after_results
  rfl
theorem entry_h (c : Dev nD) : (At1 m ρ c main_v9 : Spec.Mat 4096 1024) = m ((c.tc : Thread nD τ).loc main_arg1) := by
  show StableHlo.after hostOps0 (fun b => m ((c : Dev nD), b)) (Proc.devRef .tc main_v9) = _
  after_results
  rfl
theorem entry_c (c : Dev nD) : (At1 m ρ c main_arg2 : Spec.Mat 4096 1024) = m ((c.tc : Thread nD τ).loc main_arg2) :=
  StableHlo.after_of_writes_sub hostOps0 _ hostOps0_writes (by decide)
theorem entry_WX (c : Dev nD) : (At1 m ρ c main_v1 : Spec.Mat 1024 4096)
    = cat4 (m ((c.tc : Thread nD τ).loc main_arg11)) (m ((c.tc : Thread nD τ).loc main_arg12)) (m ((c.tc : Thread nD τ).loc main_arg14)) (m ((c.tc : Thread nD τ).loc main_arg13)) := by
  show StableHlo.after hostOps0 (fun b => m ((c : Dev nD), b)) (Proc.devRef .tc main_v1) = _
  after_results
  rfl
theorem entry_WH (c : Dev nD) : (At1 m ρ c main_v3 : Spec.Mat 1024 4096)
    = cat4 (m ((c.tc : Thread nD τ).loc main_arg3)) (m ((c.tc : Thread nD τ).loc main_arg4)) (m ((c.tc : Thread nD τ).loc main_arg6)) (m ((c.tc : Thread nD τ).loc main_arg5)) := by
  show StableHlo.after hostOps0 (fun b => m ((c : Dev nD), b)) (Proc.devRef .tc main_v3) = _
  after_results
  rfl
theorem entry_pf (c : Dev nD) : (At1 m ρ c main_v4 : Spec.Mat 1024 1024) = m ((c.tc : Thread nD τ).loc main_arg7) := by
  show StableHlo.after hostOps0 (fun b => m ((c : Dev nD), b)) (Proc.devRef .tc main_v4) = _
  after_results
  rfl
theorem entry_pi (c : Dev nD) : (At1 m ρ c main_v5 : Spec.Mat 1024 1024) = m ((c.tc : Thread nD τ).loc main_arg8) := by
  show StableHlo.after hostOps0 (fun b => m ((c : Dev nD), b)) (Proc.devRef .tc main_v5) = _
  after_results
  rfl
theorem entry_po (c : Dev nD) : (At1 m ρ c main_v6 : Spec.Mat 1024 1024) = m ((c.tc : Thread nD τ).loc main_arg9) := by
  show StableHlo.after hostOps0 (fun b => m ((c : Dev nD), b)) (Proc.devRef .tc main_v6) = _
  after_results
  rfl

/-! ## The arguments by role, and the cell region's two arrays -/

abbrev kX (c : Dev nD) : Spec.Mat 4096 1024 := m ((c.tc : Thread nD τ).loc main_arg0)
abbrev kH (c : Dev nD) : Spec.Mat 4096 1024 := m ((c.tc : Thread nD τ).loc main_arg1)
abbrev kC (c : Dev nD) : Spec.Mat 4096 1024 := m ((c.tc : Thread nD τ).loc main_arg2)
abbrev kWX (c : Dev nD) : Spec.Mat 1024 4096 :=
  cat4 (m ((c.tc : Thread nD τ).loc main_arg11)) (m ((c.tc : Thread nD τ).loc main_arg12)) (m ((c.tc : Thread nD τ).loc main_arg14)) (m ((c.tc : Thread nD τ).loc main_arg13))
abbrev kWH (c : Dev nD) : Spec.Mat 1024 4096 :=
  cat4 (m ((c.tc : Thread nD τ).loc main_arg3)) (m ((c.tc : Thread nD τ).loc main_arg4)) (m ((c.tc : Thread nD τ).loc main_arg6)) (m ((c.tc : Thread nD τ).loc main_arg5))
abbrev kPf (c : Dev nD) : Spec.Mat 1024 1024 := m ((c.tc : Thread nD τ).loc main_arg7)
abbrev kPi (c : Dev nD) : Spec.Mat 1024 1024 := m ((c.tc : Thread nD τ).loc main_arg8)
abbrev kPo (c : Dev nD) : Spec.Mat 1024 1024 := m ((c.tc : Thread nD τ).loc main_arg9)
abbrev kWop (c : Dev nD) : Spec.Mat 1024 32000 := m ((c.tc : Thread nD τ).loc main_arg10)

/-- Ct after the run is the specification's, of the arguments. -/
theorem cell_array (c : Dev nD) : ((dat0 (At1 m ρ) c).arrAt 9 cfg0.N : Spec.Mat 4096 1024)
    = Spec.Ct (kX m c) (kH m c) (kC m c) (kWX m c) (kWH m c) (kPf m c) (kPi m c) := by
  rw [final_Ct (At1 m ρ) c, entry_x, entry_h, entry_c, entry_WX, entry_WH, entry_pf, entry_pi]

/-- Ht after the run is the specification's, of the arguments. -/
theorem hidden_array (c : Dev nD) : ((dat0 (At1 m ρ) c).arrAt 8 cfg0.N : Spec.Mat 4096 1024)
    = Spec.Ht (kX m c) (kH m c) (kC m c) (kWX m c) (kWH m c) (kPf m c) (kPi m c) (kPo m c) := by
  rw [final_Ht (At1 m ρ) c, entry_x, entry_h, entry_c, entry_WX, entry_WH, entry_pf, entry_pi, entry_po]

/-! ## What the projection region is entered with -/

/-- The hidden state, rounded (no change at the ideal values): the cell region's first output array. -/
theorem entry_ht (c : Dev nD) : (At3 m ρ c main_v11 : Spec.Mat 4096 1024) = (dat0 (At1 m ρ) c).arrAt 8 cfg0.N := by
  show StableHlo.after hostOps1 (W2 m ρ c) (Proc.devRef .tc main_v11) = _
  after_results
  exact W2_arr m ρ c 8

/-- The output weight, rounded before the cell region and untouched since. -/
theorem entry_wop (c : Dev nD) : (At3 m ρ c main_v7 : Spec.Mat 1024 32000) = m ((c.tc : Thread nD τ).loc main_arg10) :=
  calc (At3 m ρ c main_v7 : Spec.Mat 1024 32000)
    _ = W2 m ρ c (Proc.devRef .tc main_v7) := StableHlo.after_of_writes_sub hostOps1 _ hostOps1_writes (by decide)
    _ = W1 m ρ c (Proc.devRef .tc main_v7) := W2_of_ne m ρ c main_v7 (by decide)
    _ = m ((c.tc : Thread nD τ).loc main_arg10) := by
      show StableHlo.after hostOps0 (fun b => m ((c : Dev nD), b)) (Proc.devRef .tc main_v7) = _
      after_results
      rfl

/-- Yt after the run is the specification's, of the arguments. -/
theorem proj_array (c : Dev nD) : ((dat1 (At3 m ρ) c).arrAt 2 cfg1.N : Spec.Mat 4096 32000)
    = Spec.Yt (kX m c) (kH m c) (kC m c) (kWX m c) (kWH m c) (kPf m c) (kPi m c) (kPo m c) (kWop m c) := by
  rw [final_Yt (At3 m ρ) c, entry_ht, entry_wop, hidden_array]
  rfl

/-! ## The run -/

/-- The idealized kernel program's run with its three results named by the specification and its arguments unchanged. -/
theorem run_spec : θ_run defs (onTc (τ := τ) (main (F := Ideal))) ⟨m, fun _ => 0, ρ⟩ fun r => ∀ c : Dev nD,
      (r.2.mem ((c.tc : Thread nD τ).loc main_v12) : Spec.Mat 4096 32000)
          = Spec.Yt (kX m c) (kH m c) (kC m c) (kWX m c) (kWH m c) (kPf m c) (kPi m c) (kPo m c) (kWop m c)
      ∧ (r.2.mem ((c.tc : Thread nD τ).loc main_v10_0) : Spec.Mat 4096 1024)
          = Spec.Ht (kX m c) (kH m c) (kC m c) (kWX m c) (kWH m c) (kPf m c) (kPi m c) (kPo m c)
      ∧ (r.2.mem ((c.tc : Thread nD τ).loc main_v10_1) : Spec.Mat 4096 1024)
          = Spec.Ct (kX m c) (kH m c) (kC m c) (kWX m c) (kWH m c) (kPf m c) (kPi m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c =>
    ⟨((h c _ (mem_uc main_v12 (by decide))).trans (W4_main_v12 m ρ c)).trans (proj_array m ρ c),
     ((h c _ (mem_uc main_v10_0 (by decide))).trans (W4_main_v10_0 m ρ c)).trans (hidden_array m ρ c),
     ((h c _ (mem_uc main_v10_1 (by decide))).trans (W4_main_v10_1 m ρ c)).trans (cell_array m ρ c),
     (h c _ (mem_uc main_arg0 (by decide))).trans (W4_untouched m ρ c main_arg0 (by decide) (by decide) (by decide) (by decide)),
     (h c _ (mem_uc main_arg1 (by decide))).trans (W4_untouched m ρ c main_arg1 (by decide) (by decide) (by decide) (by decide)),
     (h c _ (mem_uc main_arg2 (by decide))).trans (W4_main_arg2 m ρ c),
     (h c _ (mem_uc main_arg3 (by decide))).trans (W4_untouched m ρ c main_arg3 (by decide) (by decide) (by decide) (by decide)),
     (h c _ (mem_uc main_arg4 (by decide))).trans (W4_untouched m ρ c main_arg4 (by decide) (by decide) (by decide) (by decide)),
     (h c _ (mem_uc main_arg5 (by decide))).trans (W4_untouched m ρ c main_arg5 (by decide) (by decide) (by decide) (by decide)),
     (h c _ (mem_uc main_arg6 (by decide))).trans (W4_untouched m ρ c main_arg6 (by decide) (by decide) (by decide) (by decide)),
     (h c _ (mem_uc main_arg7 (by decide))).trans (W4_untouched m ρ c main_arg7 (by decide) (by decide) (by decide) (by decide)),
     (h c _ (mem_uc main_arg8 (by decide))).trans (W4_untouched m ρ c main_arg8 (by decide) (by decide) (by decide) (by decide)),
     (h c _ (mem_uc main_arg9 (by decide))).trans (W4_untouched m ρ c main_arg9 (by decide) (by decide) (by decide) (by decide)),
     (h c _ (mem_uc main_arg10 (by decide))).trans (W4_untouched m ρ c main_arg10 (by decide) (by decide) (by decide) (by decide)),
     (h c _ (mem_uc main_arg11 (by decide))).trans (W4_untouched m ρ c main_arg11 (by decide) (by decide) (by decide) (by decide)),
     (h c _ (mem_uc main_arg12 (by decide))).trans (W4_untouched m ρ c main_arg12 (by decide) (by decide) (by decide) (by decide)),
     (h c _ (mem_uc main_arg13 (by decide))).trans (W4_untouched m ρ c main_arg13 (by decide) (by decide) (by decide) (by decide)),
     (h c _ (mem_uc main_arg14 (by decide))).trans (W4_untouched m ρ c main_arg14 (by decide) (by decide) (by decide) (by decide))⟩)
    (run_all (F := Ideal) m ρ)

end Cert.KernelIdeal.Hand

end
-- ==== Proof.RefValue.lean ====
/-
  The reference program's three results are the specification's arrays.
-/
import proofs.«175886_j51951924412948_1_alg».proof.Proof.Gen.ReferenceIdeal.Run
import proofs.«175886_j51951924412948_1_alg».proof.Proof.Gen.ReferenceIdeal.Read
import proofs.«175886_j51951924412948_1_alg».proof.Proof.Spec

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.ValueIdx

/-- Four 1024 × 1024 matrices side by side. -/
def cat4 (a b c d : Spec.Mat 1024 1024) : Spec.Mat 1024 4096 :=
  concatenate S1024x4096 1 [⟨S1024x1024, a⟩, ⟨S1024x1024, b⟩, ⟨S1024x1024, c⟩, ⟨S1024x1024, d⟩]
    concatenates_S1024x1024_S1024x1024_S1024x1024_S1024x1024_S1024x4096_d1

open Cert.ReferenceIdeal.Read

/-! ## The index maps of the contractions and of the column slices, at a point given by its two coordinates -/

theorem lidx_v2 (r : Fin 4096) (q : Fin 4096) (k : Fin 1024) : lidx_main_v2 (ix2 r q) k = ix2 r k := by
  funext a; match a with | ⟨0, _⟩ => rfl | ⟨1, _⟩ => rfl
theorem ridx_v2 (r : Fin 4096) (q : Fin 4096) (k : Fin 1024) : ridx_main_v2 (ix2 r q) k = ix2 k q := by
  funext a; match a with | ⟨0, _⟩ => rfl | ⟨1, _⟩ => rfl
theorem lidx_v3 (r : Fin 4096) (q : Fin 4096) (k : Fin 1024) : lidx_main_v3 (ix2 r q) k = ix2 r k := by
  funext a; match a with | ⟨0, _⟩ => rfl | ⟨1, _⟩ => rfl
theorem ridx_v3 (r : Fin 4096) (q : Fin 4096) (k : Fin 1024) : ridx_main_v3 (ix2 r q) k = ix2 k q := by
  funext a; match a with | ⟨0, _⟩ => rfl | ⟨1, _⟩ => rfl
theorem lidx_v9 (r : Fin 4096) (q : Fin 1024) (k : Fin 1024) : lidx_main_v9 (ix2 r q) k = ix2 r k := by
  funext a; match a with | ⟨0, _⟩ => rfl | ⟨1, _⟩ => rfl
theorem ridx_v9 (r : Fin 4096) (q : Fin 1024) (k : Fin 1024) : ridx_main_v9 (ix2 r q) k = ix2 k q := by
  funext a; match a with | ⟨0, _⟩ => rfl | ⟨1, _⟩ => rfl
theorem lidx_v17 (r : Fin 4096) (q : Fin 1024) (k : Fin 1024) : lidx_main_v17 (ix2 r q) k = ix2 r k := by
  funext a; match a with | ⟨0, _⟩ => rfl | ⟨1, _⟩ => rfl
theorem ridx_v17 (r : Fin 4096) (q : Fin 1024) (k : Fin 1024) : ridx_main_v17 (ix2 r q) k = ix2 k q := by
  funext a; match a with | ⟨0, _⟩ => rfl | ⟨1, _⟩ => rfl
theorem lidx_v29 (r : Fin 4096) (q : Fin 1024) (k : Fin 1024) : lidx_main_v29 (ix2 r q) k = ix2 r k := by
  funext a; match a with | ⟨0, _⟩ => rfl | ⟨1, _⟩ => rfl
theorem ridx_v29 (r : Fin 4096) (q : Fin 1024) (k : Fin 1024) : ridx_main_v29 (ix2 r q) k = ix2 k q := by
  funext a; match a with | ⟨0, _⟩ => rfl | ⟨1, _⟩ => rfl
theorem lidx_v39 (r : Fin 4096) (q : Fin 32000) (k : Fin 1024) : lidx_main_v39 (ix2 r q) k = ix2 r k := by
  funext a; match a with | ⟨0, _⟩ => rfl | ⟨1, _⟩ => rfl
theorem ridx_v39 (r : Fin 4096) (q : Fin 32000) (k : Fin 1024) : ridx_main_v39 (ix2 r q) k = ix2 k q := by
  funext a; match a with | ⟨0, _⟩ => rfl | ⟨1, _⟩ => rfl

theorem idx_v5 (r : Fin 4096) (j : Fin 1024) : idx_main_v5 (ix2 r j) = ix2 r (Spec.gcol 0 (by omega) j) := by
  funext a; match a with | ⟨0, _⟩ => rfl | ⟨1, _⟩ => exact Fin.ext (by show j.val = 0 + j.val; omega)
theorem idx_v6 (r : Fin 4096) (j : Fin 1024) : idx_main_v6 (ix2 r j) = ix2 r (Spec.gcol 1024 (by omega) j) := by
  funext a; match a with | ⟨0, _⟩ => rfl | ⟨1, _⟩ => rfl
theorem idx_v7 (r : Fin 4096) (j : Fin 1024) : idx_main_v7 (ix2 r j) = ix2 r (Spec.gcol 2048 (by omega) j) := by
  funext a; match a with | ⟨0, _⟩ => rfl | ⟨1, _⟩ => rfl
theorem idx_v8 (r : Fin 4096) (j : Fin 1024) : idx_main_v8 (ix2 r j) = ix2 r (Spec.gcol 3072 (by omega) j) := by
  funext a; match a with | ⟨0, _⟩ => rfl | ⟨1, _⟩ => rfl

/-! ## The broadcast constant is the pattern of 1.0 at every index -/

theorem one_v13 (i : S4096x1024.Idx) : val_main_v13 (F := Ideal) i = Ideal.ofBits .f32 0x3F800000#32 := by
  simp only [val_main_v13_apply, val_main_cst_apply, Ideal.ofBits_def]
theorem one_v15 (i : S4096x1024.Idx) : val_main_v15 (F := Ideal) i = Ideal.ofBits .f32 0x3F800000#32 := by
  simp only [val_main_v15_apply, val_main_cst_0_apply, Ideal.ofBits_def]
theorem one_v21 (i : S4096x1024.Idx) : val_main_v21 (F := Ideal) i = Ideal.ofBits .f32 0x3F800000#32 := by
  simp only [val_main_v21_apply, val_main_cst_1_apply, Ideal.ofBits_def]
theorem one_v23 (i : S4096x1024.Idx) : val_main_v23 (F := Ideal) i = Ideal.ofBits .f32 0x3F800000#32 := by
  simp only [val_main_v23_apply, val_main_cst_2_apply, Ideal.ofBits_def]
theorem one_v33 (i : S4096x1024.Idx) : val_main_v33 (F := Ideal) i = Ideal.ofBits .f32 0x3F800000#32 := by
  simp only [val_main_v33_apply, val_main_cst_3_apply, Ideal.ofBits_def]
theorem one_v35 (i : S4096x1024.Idx) : val_main_v35 (F := Ideal) i = Ideal.ofBits .f32 0x3F800000#32 := by
  simp only [val_main_v35_apply, val_main_cst_4_apply, Ideal.ofBits_def]
theorem one_v42 (i : S4096x32000.Idx) : val_main_v42 (F := Ideal) i = Ideal.ofBits .f32 0x3F800000#32 := by
  simp only [val_main_v42_apply, val_main_cst_5_apply, Ideal.ofBits_def]
theorem one_v44 (i : S4096x32000.Idx) : val_main_v44 (F := Ideal) i = Ideal.ofBits .f32 0x3F800000#32 := by
  simp only [val_main_v44_apply, val_main_cst_6_apply, Ideal.ofBits_def]

section Read

variable (x0 x1 x2 : Spec.Mat 4096 1024) (x3 x4 x5 x6 x7 x8 x9 x11 x12 x13 x14 : Spec.Mat 1024 1024) (x10 : Spec.Mat 1024 32000)

/-! ## The fused gate pre-activations -/

/-- x·WX + h·WH at row r, column q. -/
theorem v4_at (r : Fin 4096) (q : Fin 4096) :
    val_main_v4 (F := Ideal) x0 x1 x3 x4 x5 x6 x11 x12 x13 x14 (ix2 r q)
      = Spec.pre x0 x1 (cat4 x11 x12 x14 x13) (cat4 x3 x4 x6 x5) r q := by
  rw [val_main_v4_apply, val_main_v2_apply, val_main_v3_apply]
  simp only [lidx_v2, ridx_v2, lidx_v3, ridx_v3, Ideal.addf_def]
  rfl

/-- The contraction of the cell rows with a peephole matrix. -/
theorem v9_at (r : Fin 4096) (j : Fin 1024) :
    val_main_v9 (F := Ideal) x2 x7 (ix2 r j) = Spec.dot x2 x7 r j := by
  rw [val_main_v9_apply]
  simp only [lidx_v9, ridx_v9]
  rfl

theorem v17_at (r : Fin 4096) (j : Fin 1024) :
    val_main_v17 (F := Ideal) x2 x8 (ix2 r j) = Spec.dot x2 x8 r j := by
  rw [val_main_v17_apply]
  simp only [lidx_v17, ridx_v17]
  rfl

/-! ## The new cell state -/

/-- The forget gate. -/
theorem v16_at (r : Fin 4096) (j : Fin 1024) :
    val_main_v16 (F := Ideal) x0 x1 x2 x3 x4 x5 x6 x7 x11 x12 x13 x14 (ix2 r j)
      = Ideal.logistic (Spec.pre x0 x1 (cat4 x11 x12 x14 x13) (cat4 x3 x4 x6 x5) r (Spec.gcol 0 (by omega) j) + Spec.dot x2 x7 r j) := by
  rw [val_main_v16_apply, val_main_v14_apply, val_main_v12_apply, val_main_v11_apply, val_main_v10_apply,
    val_main_v5_apply, idx_v5, v4_at, v9_at, one_v15, one_v13]
  simp only [Ideal.hostDivf_def, Ideal.addf_def, Ideal.hostUnary_exp_def, Ideal.hostNegf_def, Ideal.negf_def]
  exact Spec.logistic_spelt _

/-- The input gate. -/
theorem v24_at (r : Fin 4096) (j : Fin 1024) :
    val_main_v24 (F := Ideal) x0 x1 x2 x3 x4 x5 x6 x8 x11 x12 x13 x14 (ix2 r j)
      = Ideal.logistic (Spec.pre x0 x1 (cat4 x11 x12 x14 x13) (cat4 x3 x4 x6 x5) r (Spec.gcol 1024 (by omega) j) + Spec.dot x2 x8 r j) := by
  rw [val_main_v24_apply, val_main_v22_apply, val_main_v20_apply, val_main_v19_apply, val_main_v18_apply,
    val_main_v6_apply, idx_v6, v4_at, v17_at, one_v23, one_v21]
  simp only [Ideal.hostDivf_def, Ideal.addf_def, Ideal.hostUnary_exp_def, Ideal.hostNegf_def, Ideal.negf_def]
  exact Spec.logistic_spelt _

/-- The candidate. -/
theorem v25_at (r : Fin 4096) (j : Fin 1024) :
    val_main_v25 (F := Ideal) x0 x1 x3 x4 x5 x6 x11 x12 x13 x14 (ix2 r j)
      = Ideal.tanh (Spec.pre x0 x1 (cat4 x11 x12 x14 x13) (cat4 x3 x4 x6 x5) r (Spec.gcol 2048 (by omega) j)) := by
  rw [val_main_v25_apply, val_main_v7_apply, idx_v7, v4_at]
  simp only [Ideal.hostUnary_tanh_def]

/-- The new cell state at row r, column j. -/
theorem v28_at (r : Fin 4096) (j : Fin 1024) :
    val_main_v28 (F := Ideal) x0 x1 x2 x3 x4 x5 x6 x7 x8 x11 x12 x13 x14 (ix2 r j)
      = Spec.cell x0 x1 x2 (cat4 x11 x12 x14 x13) (cat4 x3 x4 x6 x5) x7 x8 r j := by
  rw [val_main_v28_apply, val_main_v26_apply, val_main_v27_apply, v16_at, v24_at, v25_at]
  simp only [Ideal.addf_def, Ideal.mulf_def]
  rfl

/-- The new cell state as an array. -/
theorem v28_eq :
    val_main_v28 (F := Ideal) x0 x1 x2 x3 x4 x5 x6 x7 x8 x11 x12 x13 x14
      = Spec.Ct x0 x1 x2 (cat4 x11 x12 x14 x13) (cat4 x3 x4 x6 x5) x7 x8 := by
  funext i
  obtain ⟨r, j, rfl⟩ : ∃ r j, i = ix2 r j := ⟨i 0, i 1, eq_ix2 i⟩
  exact v28_at x0 x1 x2 x3 x4 x5 x6 x7 x8 x11 x12 x13 x14 r j

/-! ## The new hidden state -/

/-- The contraction of the new cell rows with the output peephole matrix. -/
theorem v29_at (r : Fin 4096) (j : Fin 1024) :
    val_main_v29 (F := Ideal) x0 x1 x2 x3 x4 x5 x6 x7 x8 x9 x11 x12 x13 x14 (ix2 r j)
      = Spec.dot (Spec.Ct x0 x1 x2 (cat4 x11 x12 x14 x13) (cat4 x3 x4 x6 x5) x7 x8) x9 r j := by
  rw [val_main_v29_apply, v28_eq]
  simp only [lidx_v29, ridx_v29]
  rfl

/-- The output gate. -/
theorem v36_at (r : Fin 4096) (j : Fin 1024) :
    val_main_v36 (F := Ideal) x0 x1 x2 x3 x4 x5 x6 x7 x8 x9 x11 x12 x13 x14 (ix2 r j)
      = Ideal.logistic (Spec.pre x0 x1 (cat4 x11 x12 x14 x13) (cat4 x3 x4 x6 x5) r (Spec.gcol 3072 (by omega) j)
          + Spec.dot (Spec.Ct x0 x1 x2 (cat4 x11 x12 x14 x13) (cat4 x3 x4 x6 x5) x7 x8) x9 r j) := by
  rw [val_main_v36_apply, val_main_v34_apply, val_main_v32_apply, val_main_v31_apply, val_main_v30_apply,
    val_main_v8_apply, idx_v8, v4_at, v29_at, one_v35, one_v33]
  simp only [Ideal.hostDivf_def, Ideal.addf_def, Ideal.hostUnary_exp_def, Ideal.hostNegf_def, Ideal.negf_def]
  exact Spec.logistic_spelt _

/-- The new hidden state at row r, column j. -/
theorem v38_at (r : Fin 4096) (j : Fin 1024) :
    val_main_v38 (F := Ideal) x0 x1 x2 x3 x4 x5 x6 x7 x8 x9 x11 x12 x13 x14 (ix2 r j)
      = Spec.hidden x0 x1 x2 (cat4 x11 x12 x14 x13) (cat4 x3 x4 x6 x5) x7 x8 x9 r j := by
  rw [val_main_v38_apply, val_main_v37_apply, v36_at, v28_at]
  simp only [Ideal.mulf_def, Ideal.hostUnary_tanh_def]
  rfl

/-- The new hidden state as an array. -/
theorem v38_eq :
    val_main_v38 (F := Ideal) x0 x1 x2 x3 x4 x5 x6 x7 x8 x9 x11 x12 x13 x14
      = Spec.Ht x0 x1 x2 (cat4 x11 x12 x14 x13) (cat4 x3 x4 x6 x5) x7 x8 x9 := by
  funext i
  obtain ⟨r, j, rfl⟩ : ∃ r j, i = ix2 r j := ⟨i 0, i 1, eq_ix2 i⟩
  exact v38_at x0 x1 x2 x3 x4 x5 x6 x7 x8 x9 x11 x12 x13 x14 r j

/-! ## The projected output -/

/-- The projected output as an array. -/
theorem v45_eq :
    val_main_v45 (F := Ideal) x0 x1 x2 x3 x4 x5 x6 x7 x8 x9 x10 x11 x12 x13 x14
      = Spec.Yt x0 x1 x2 (cat4 x11 x12 x14 x13) (cat4 x3 x4 x6 x5) x7 x8 x9 x10 := by
  funext i
  obtain ⟨r, v, rfl⟩ : ∃ r v, i = ix2 r v := ⟨i 0, i 1, eq_ix2 i⟩
  rw [val_main_v45_apply, val_main_v43_apply, val_main_v41_apply, val_main_v40_apply, val_main_v39_apply,
    v38_eq, one_v44, one_v42]
  simp only [lidx_v39, ridx_v39, Ideal.hostDivf_def, Ideal.addf_def, Ideal.hostUnary_exp_def, Ideal.hostNegf_def, Ideal.negf_def]
  exact Spec.logistic_spelt _

end Read

variable (m : (ℓ : Loc nD τ sig) → Buf (Elt Ideal) ℓ)

/-- The argument arrays of core `c`, by role. -/
abbrev aX (c : Dev nD) : Spec.Mat 4096 1024 := m ((c.tc : Thread nD τ).loc main_arg0)
abbrev aH (c : Dev nD) : Spec.Mat 4096 1024 := m ((c.tc : Thread nD τ).loc main_arg1)
abbrev aC (c : Dev nD) : Spec.Mat 4096 1024 := m ((c.tc : Thread nD τ).loc main_arg2)
abbrev aWX (c : Dev nD) : Spec.Mat 1024 4096 :=
  cat4 (m ((c.tc : Thread nD τ).loc main_arg11)) (m ((c.tc : Thread nD τ).loc main_arg12)) (m ((c.tc : Thread nD τ).loc main_arg14)) (m ((c.tc : Thread nD τ).loc main_arg13))
abbrev aWH (c : Dev nD) : Spec.Mat 1024 4096 :=
  cat4 (m ((c.tc : Thread nD τ).loc main_arg3)) (m ((c.tc : Thread nD τ).loc main_arg4)) (m ((c.tc : Thread nD τ).loc main_arg6)) (m ((c.tc : Thread nD τ).loc main_arg5))
abbrev aPf (c : Dev nD) : Spec.Mat 1024 1024 := m ((c.tc : Thread nD τ).loc main_arg7)
abbrev aPi (c : Dev nD) : Spec.Mat 1024 1024 := m ((c.tc : Thread nD τ).loc main_arg8)
abbrev aPo (c : Dev nD) : Spec.Mat 1024 1024 := m ((c.tc : Thread nD τ).loc main_arg9)
abbrev aWop (c : Dev nD) : Spec.Mat 1024 32000 := m ((c.tc : Thread nD τ).loc main_arg10)

/-- The reference's run with its three results named by the specification. -/
theorem run_spec (ρ : Dev nD → PrngReg) :
    θ_run defs (onTc (τ := τ) (main (F := Ideal))) ⟨m, fun _ => 0, ρ⟩ fun r => ∀ c : Dev nD,
      (r.2.mem ((c.tc : Thread nD τ).loc main_v45) : Spec.Mat 4096 32000)
          = Spec.Yt (aX m c) (aH m c) (aC m c) (aWX m c) (aWH m c) (aPf m c) (aPi m c) (aPo m c) (aWop m c)
      ∧ (r.2.mem ((c.tc : Thread nD τ).loc main_v38) : Spec.Mat 4096 1024)
          = Spec.Ht (aX m c) (aH m c) (aC m c) (aWX m c) (aWH m c) (aPf m c) (aPi m c) (aPo m c)
      ∧ (r.2.mem ((c.tc : Thread nD τ).loc main_v28) : Spec.Mat 4096 1024)
          = Spec.Ct (aX m c) (aH m c) (aC m c) (aWX m c) (aWH m c) (aPf m c) (aPi m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨
      (h c).1.trans ((val_main_v45_eq m c).trans (v45_eq _ _ _ _ _ _ _ _ _ _ _ _ _ _ _)),
      (h c).2.1.trans ((val_main_v38_eq m c).trans (v38_eq _ _ _ _ _ _ _ _ _ _ _ _ _ _)),
      (h c).2.2.1.trans ((val_main_v28_eq _ _ _ _ _ _ _ _ _ _ _ _ _).trans (v28_eq _ _ _ _ _ _ _ _ _ _ _ _ _)),
      (h c).2.2.2⟩) (Value.run (F := Ideal) m ρ)

end Cert.ReferenceIdeal.RefValue

end
-- ==== Proof.lean ====
/-
  The certificate of the peephole LSTM step with its output projection.

  The kernel program runs two regions between host operations: the cell region computes, for blocks of 128 batch rows,
  the new cell state Ct and hidden state Ht from x, h, c and the fused and peephole weights; the projection region
  computes Yt = σ(Ht · w_op) on 512 × 3200 tiles. The reference computes the same three arrays with whole-array host
  operations. At the ideal values a change of float format is the identity, a matrix product is the plain sum of
  products whichever unit computes it and however its rows are blocked, and the logistic function is
  1 / (1 + e^(−z)) whether it is one operation or spelt out; so both programs end at the arrays of Proof/Spec.lean, with
  no algebraic law and without using the finiteness of the inputs.

  The three frames: the kernel program's, at the word-level and at the ideal values, is its run read at the arguments
  (Proof/BitsRun.lean, Proof/IdealRun.lean); the reference's is its run with the results dropped. The idealization
  pass rewrote nothing, so there is nothing to preserve.
-/
import proofs.«175886_j51951924412948_1_alg».proof.Defs
import proofs.«175886_j51951924412948_1_alg».proof.Proof.Gen.Kernel
import proofs.«175886_j51951924412948_1_alg».proof.Proof.Gen.KernelIdeal
import proofs.«175886_j51951924412948_1_alg».proof.Proof.Gen.ReferenceIdeal
import proofs.«175886_j51951924412948_1_alg».proof.Proof.Gen.Pre_finite_inputs
import proofs.«175886_j51951924412948_1_alg».proof.Proof.BitsRun
import proofs.«175886_j51951924412948_1_alg».proof.Proof.IdealValue
import proofs.«175886_j51951924412948_1_alg».proof.Proof.RefValue
import Idealize.ShloMosaic.Adequacy
import Idealize.ShloMosaic.Init

noncomputable section

namespace Cert.Proof

open Idealize.ShloMosaic Idealize.SL.Sem

/-- The word-level kernel program terminates, faults nowhere and leaves its arguments as launched. -/
theorem frame_kernel : Cert.frame_Kernel := fun m ρ _ => Cert.Kernel.Hand.frame m ρ

/-- So does the kernel program at the ideal values. -/
theorem frame_kernelIdeal : Cert.frame_KernelIdeal := fun m ρ _ => Cert.KernelIdeal.Hand.frame m ρ

/-- So does the reference: its run with the three results dropped. -/
theorem frame_referenceIdeal : Cert.frame_ReferenceIdeal := fun m ρ _ =>
  (θ_run Cert.ReferenceIdeal.defs _ _).mono (fun _ h c => (h c).2.2.2) (Cert.ReferenceIdeal.RefValue.run_spec m ρ)

/-- The idealization rewrote no operation. -/
theorem preserves : Cert.preserves_Kernel_KernelIdeal := trivial

/-- Both programs, run from memories that agree on the fifteen arguments, end with Yt, Ht and Ct at the
    specification's arrays of those arguments. -/
theorem algebraic : Cert.algebraic_KernelIdeal_ReferenceIdeal := by
  intro m ρ m' ρ' _ hagree
  refine ⟨_, _, _, Cert.KernelIdeal.Hand.run_spec m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.RefValue.run_spec m' ρ')
  all_goals
    obtain ⟨e0, e1, e2, e3, e4, e5, e6, e7, e8, e9, e10, e11, e12, e13, e14⟩ := hagree c
    simp only [Cert.ReferenceIdeal.RefValue.aX, Cert.ReferenceIdeal.RefValue.aH, Cert.ReferenceIdeal.RefValue.aC,
      Cert.ReferenceIdeal.RefValue.aWX, Cert.ReferenceIdeal.RefValue.aWH, Cert.ReferenceIdeal.RefValue.aPf,
      Cert.ReferenceIdeal.RefValue.aPi, Cert.ReferenceIdeal.RefValue.aPo, Cert.ReferenceIdeal.RefValue.aWop,
      e0, e1, e2, e3, e4, e5, e6, e7, e8, e9, e10, e11, e12, e13, e14]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
